-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : FVec F S2000000x16 .f32) (main_arg2 : FVec F S2000000x16 .f32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : FVec F S2000000x16 .f32 := Host.absf main_arg1
  let main_cst_0 : FVec F S_ .f32 := constant S_ .f32 0x7F800000#32
  let main_v5 : FVec F S2000000x16 .f32 := broadcastInDim S2000000x16 ![] bcast_S_S2000000x16 main_cst_0
  let main_v6 : IVec S2000000x16 1 := cmpf .olt main_v4 main_v5
  let main_c_1 : IVec S_ 1 := constantI S_ 1 1#1
  let main_v7 : IVec S_ 1 := (fun x v => Host.reduce IntOp.andi x v reducesTo_S2000000x16_S_d0_1 h_S_) main_v6 main_c_1
  let main_v8 : IVec S_ 1 := andi main_v3 main_v7
  let main_v9 : FVec F S2000000x16 .f32 := Host.absf main_arg2
  let main_cst_2 : FVec F S_ .f32 := constant S_ .f32 0x7F800000#32
  let main_v10 : FVec F S2000000x16 .f32 := broadcastInDim S2000000x16 ![] bcast_S_S2000000x16 main_cst_2
  let main_v11 : IVec S2000000x16 1 := cmpf .olt main_v9 main_v10
  let main_c_3 : IVec S_ 1 := constantI S_ 1 1#1
  let main_v12 : IVec S_ 1 := (fun x v => Host.reduce IntOp.andi x v reducesTo_S2000000x16_S_d0_1 h_S_) main_v11 main_c_3
  let main_v13 : IVec S_ 1 := andi main_v8 main_v12
  main_v13
-- ==== Kernel.lean ====
abbrev S2000000x16 : Shape := ⟨2, ![2000000, 16]⟩
abbrev S1x128 : Shape := ⟨2, ![1, 128]⟩
abbrev S20000x16 : Shape := ⟨2, ![20000, 16]⟩
abbrev S20000 : Shape := ⟨1, ![20000]⟩
abbrev S20000x1 : Shape := ⟨2, ![20000, 1]⟩
abbrev S1 : Shape := ⟨1, ![1]⟩
abbrev S1x1 : Shape := ⟨2, ![1, 1]⟩
abbrev S1x10 : Shape := ⟨2, ![1, 10]⟩
abbrev S10 : Shape := ⟨1, ![10]⟩
abbrev S_ : Shape := ⟨0, ![]⟩
abbrev S2 : Shape := ⟨1, ![2]⟩

abbrev nBuf : Space → Nat
  | .hbm => 49
  | .vmem => 15
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S2000000x16, .f32⟩
  | .hbm, ⟨3, _⟩ => ⟨S1x128, .f32⟩
  | .hbm, ⟨4, _⟩ => ⟨S1x10, .f32⟩
  | .hbm, ⟨5, _⟩ => ⟨S10, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S10, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S1x128, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S20000x16, .f32⟩
  | .local _ .vmem, ⟨1, _⟩ => ⟨S20000x16, .f32⟩
  | .local _ .vmem, ⟨2, _⟩ => ⟨S20000x16, .f32⟩
  | .local _ .vmem, ⟨3, _⟩ => ⟨S20000x16, .f32⟩
  | .local _ .vmem, ⟨4, _⟩ => ⟨S20000x16, .f32⟩
  | .local _ .vmem, ⟨5, _⟩ => ⟨S20000x16, .f32⟩
  | .local _ .vmem, ⟨6, _⟩ => ⟨S1x128, .f32⟩
  | .local _ .vmem, ⟨7, _⟩ => ⟨S20000x16, .f32⟩
  | .local _ .vmem, ⟨8, _⟩ => ⟨S20000x16, .f32⟩
  | .local _ .vmem, ⟨9, _⟩ => ⟨S20000x16, .f32⟩
  | .local _ .vmem, ⟨10, _⟩ => ⟨S20000x16, .f32⟩
  | .local _ .vmem, ⟨11, _⟩ => ⟨S20000x16, .f32⟩
  | .local _ .vmem, ⟨12, _⟩ => ⟨S20000x16, .f32⟩
  | .local _ .vmem, ⟨13, _⟩ => ⟨S1x128, .f32⟩
  | .local _ .vmem, ⟨14, _⟩ => ⟨S1x128, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x128_S1x128_0_0 : ∀ a, (![0, 0] : Fin 2 → Nat) a + S1x128.size a ≤ S1x128.size a
  h_S1x128 : 0 < S1x128.numel
  inb_S20000x16_S20000x16_0_0 : ∀ a, (![0, 0] : Fin 2 → Nat) a + S20000x16.size a ≤ S20000x16.size a
  h_S20000x16 : 0 < S20000x16.numel
  natLt_1_32 : 1 < 32
  iota_S1x128_d1_w32 : S1x128.Iotas .tc 32 [1]
  reduces_S20000x16_S20000 : S20000x16.Reduces [1] S20000
  shapeCasts_S20000_S20000x1 : S20000.ShapeCasts S20000x1
  reduces_S20000x1_S1 : S20000x1.Reduces [0] S1
  shapeCasts_S1_S1x1 : S1.ShapeCasts S1x1
  inpos_S1x1_p0_0 : ∀ a, (![0, 0] : Fin 2 → Nat) a < S1x1.size a
  shapeCasts_S1x128_S1x128 : S1x128.ShapeCasts S1x128
  slices_S1x128_S1x10_0_0 : S1x128.Slices ![0, 0] S1x10
  shapeCasts_S1x10_S10 : S1x10.ShapeCasts S10
  slices_S1x128_S1x1_0_10 : S1x128.Slices ![0, 10] S1x1
  shapeCasts_S1x1_S_ : S1x1.ShapeCasts S_
  bcast_S_S10 : S_.BroadcastsInDim S10 (![] : Fin 0 → Fin S10.rank)
  reducesTo_S10_S_d0 : S10.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_10 : ∀ a, (![0, 10] : Fin 2 → Nat) a + S1x1.size a ≤ S1x128.size a
  h_S1x1 : 0 < S1x1.numel
  inb_S1x128_S1x1_0_0 : ∀ a, (![0, 0] : Fin 2 → Nat) a + S1x1.size a ≤ S1x128.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  slices_S1x128_S1x1_0_0 : S1x128.Slices ![0, 0] S1x1
  scatter_S1x128_S2_S10_0_0_01_0_wf : ScatterDims.WF S1x128 S2 S10 [0] [0] [0, 1] 0
  scatter_S1x128_S2_S__n_01_01_0_wf : ScatterDims.WF S1x128 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x16.size a ≤ S2000000x16.size a
  hwx0_0 : ∀ i : grid0.Coords, EltTy.bits .f32 = 32 ∨ (Rect.block (s := S2000000x16) S20000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x16.size a ≤ S2000000x16.size a
  hwx0_1 : ∀ i : grid0.Coords, EltTy.bits .f32 = 32 ∨ (Rect.block (s := S2000000x16) S20000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x16.size a ≤ S2000000x16.size a
  hwx0_2 : ∀ i : grid0.Coords, EltTy.bits .f32 = 32 ∨ (Rect.block (s := S2000000x16) S20000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S2000000x16.size a
  hwx1_0 : ∀ i : grid1.Coords, EltTy.bits .f32 = 32 ∨ (Rect.block (s := S2000000x16) S20000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x16.size a ≤ S2000000x16.size a
  hwx1_1 : ∀ i : grid1.Coords, EltTy.bits .f32 = 32 ∨ (Rect.block (s := S2000000x16) S20000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S2000000x16.size a
  hwx1_2 : ∀ i : grid1.Coords, EltTy.bits .f32 = 32 ∨ (Rect.block (s := S2000000x16) S20000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)

variable [Facts₀]

def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf

abbrev win0_0 : Pipeline.Window sig grid0 :=
  Pipeline.Window.ofSpec (Memref.whole main_arg0) S20000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S20000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S20000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2000000x16 : Shape := ⟨2, ![2000000, 16]⟩
abbrev S_ : Shape := ⟨0, ![]⟩
abbrev S32000000 : Shape := ⟨1, ![32000000]⟩
abbrev S10 : Shape := ⟨1, ![10]⟩
abbrev S32000000x1 : Shape := ⟨2, ![32000000, 1]⟩
abbrev S2000000x16x1 : Shape := ⟨3, ![2000000, 16, 1]⟩

abbrev nBuf : Space → Nat
  | .hbm => 89
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S2000000x16, .f32⟩
  | .hbm, ⟨3, _⟩ => ⟨S2000000x16, .f32⟩
  | .hbm, ⟨4, _⟩ => ⟨S2000000x16, .f32⟩
  | .hbm, ⟨5, _⟩ => ⟨S_, .f32⟩
  | .hbm, ⟨6, _⟩ => ⟨S2000000x16, .f32⟩
  | .hbm, ⟨7, _⟩ => ⟨S2000000x16, .f32⟩
  | .hbm, ⟨8, _⟩ => ⟨S_, .f32⟩
  | .hbm, ⟨9, _⟩ => ⟨S2000000x16, .f32⟩
  | .hbm, ⟨10, _⟩ => ⟨S2000000x16, .f32⟩
  | .hbm, ⟨11, _⟩ => ⟨S2000000x16, .f32⟩
  | .hbm, ⟨12, _⟩ => ⟨S2000000x16, .f32⟩
  | .hbm, ⟨13, _⟩ => ⟨S_, .f32⟩
  | .hbm, ⟨14, _⟩ => ⟨S2000000x16, .f32⟩
  | .hbm, ⟨15, _⟩ => ⟨S2000000x16, .i1⟩
  | .hbm, ⟨16, _⟩ => ⟨S2000000x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2000000x16, .f32⟩
  | .hbm, ⟨23, _⟩ => ⟨S2000000x16, .f32⟩
  | .hbm, ⟨24, _⟩ => ⟨S2000000x16, .f32⟩
  | .hbm, ⟨25, _⟩ => ⟨S2000000x16, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2000000x16, .i32⟩
  | .hbm, ⟨30, _⟩ => ⟨S2000000x16, .i32⟩
  | .hbm, ⟨31, _⟩ => ⟨S_, .i32⟩
  | .hbm, ⟨32, _⟩ => ⟨S2000000x16, .i32⟩
  | .hbm, ⟨33, _⟩ => ⟨S2000000x16, .i32⟩
  | .hbm, ⟨34, _⟩ => ⟨S2000000x16, .f32⟩
  | .hbm, ⟨35, _⟩ => ⟨S32000000, .f32⟩
  | .hbm, ⟨36, _⟩ => ⟨S32000000, .i32⟩
  | .hbm, ⟨37, _⟩ => ⟨S_, .f32⟩
  | .hbm, ⟨38, _⟩ => ⟨S10, .f32⟩
  | .hbm, ⟨39, _⟩ => ⟨S32000000x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .i1⟩
  | .hbm, ⟨44, _⟩ => ⟨S10, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S10, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S_, .i32⟩
  | .hbm, ⟨57, _⟩ => ⟨S2000000x16, .i32⟩
  | .hbm, ⟨58, _⟩ => ⟨S2000000x16, .i1⟩
  | .hbm, ⟨59, _⟩ => ⟨S_, .i32⟩
  | .hbm, ⟨60, _⟩ => ⟨S2000000x16, .i32⟩
  | .hbm, ⟨61, _⟩ => ⟨S2000000x16, .i32⟩
  | .hbm, ⟨62, _⟩ => ⟨S2000000x16, .i32⟩
  | .hbm, ⟨63, _⟩ => ⟨S2000000x16x1, .i32⟩
  | .hbm, ⟨64, _⟩ => ⟨S2000000x16, .f32⟩
  | .hbm, ⟨65, _⟩ => ⟨S_, .f32⟩
  | .hbm, ⟨66, _⟩ => ⟨S_, .f32⟩
  | .hbm, ⟨67, _⟩ => ⟨S2000000x16, .f32⟩
  | .hbm, ⟨68, _⟩ => ⟨S2000000x16, .f32⟩
  | .hbm, ⟨69, _⟩ => ⟨S_, .f32⟩
  | .hbm, ⟨70, _⟩ => ⟨S_, .f32⟩
  | .hbm, ⟨71, _⟩ => ⟨S2000000x16, .f32⟩
  | .hbm, ⟨72, _⟩ => ⟨S2000000x16, .f32⟩
  | .hbm, ⟨73, _⟩ => ⟨S_, .f32⟩
  | .hbm, ⟨74, _⟩ => ⟨S2000000x16, .f32⟩
  | .hbm, ⟨75, _⟩ => ⟨S2000000x16, .f32⟩
  | .hbm, ⟨76, _⟩ => ⟨S2000000x16, .f32⟩
  | .hbm, ⟨77, _⟩ => ⟨S2000000x16, .f32⟩
  | .hbm, ⟨78, _⟩ => ⟨S2000000x16, .f32⟩
  | .hbm, ⟨79, _⟩ => ⟨S2000000x16, .f32⟩
  | .hbm, ⟨80, _⟩ => ⟨S2000000x16, .f32⟩
  | .hbm, ⟨81, _⟩ => ⟨S2000000x16, .f32⟩
  | .hbm, ⟨82, _⟩ => ⟨S2000000x16, .f32⟩
  | .hbm, ⟨83, _⟩ => ⟨S2000000x16, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v32 : Ref sig .tc := ⟨.hbm, 55, rfl⟩
abbrev main_c_11 : Ref sig .tc := ⟨.hbm, 56, rfl⟩
abbrev main_v33 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_call2_v0 : Ref sig .tc := ⟨.hbm, 66, rfl⟩
abbrev main_call2_v1 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_16 : Ref sig .tc := ⟨.hbm, 84, rfl⟩
abbrev main_v54 : Ref sig .tc := ⟨.hbm, 85, rfl⟩
abbrev main_v55 : Ref sig .tc := ⟨.hbm, 86, rfl⟩
abbrev main_cst_17 : Ref sig .tc := ⟨.hbm, 87, rfl⟩
abbrev main_v56 : Ref sig .tc := ⟨.hbm, 88, rfl⟩

abbrev nD : Nat := 1
abbrev τ : Topo := Topo.v7x

variable {F : FTy → Type} [FloatOps F]

class Facts₀ : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel
  shapeCasts_S2000000x16_S32000000 : S2000000x16.ShapeCasts S32000000
  bcast_S_S10 : S_.BroadcastsInDim S10 (![] : Fin 0 → Fin S10.rank)
  bcast_S32000000_S32000000x1_0 : S32000000.BroadcastsInDim S32000000x1 (![0] : Fin 1 → Fin S32000000x1.rank)
  reducesTo_S10_S_d0 : S10.ReducesTo [0] S_
  bcast_S2000000x16_S2000000x16x1_0_1 : S2000000x16.BroadcastsInDim S2000000x16x1 (![0, 1] : Fin 2 → Fin S2000000x16x1.rank)
  scatter_S10_S32000000x1_S32000000_n_0_0_1_wf : ScatterDims.WF S10 S32000000x1 S32000000 [] [0] [0] 1
  gather_S10_S2000000x16x1_S2000000x16_n_0_n_n_0_2_1_wf : GatherDims.WF S10 S2000000x16x1 S2000000x16 [] [0] [] [0] [] 2 ![1]

variable [Facts₀]

def scatter_S10_S32000000x1_S32000000_n_0_0_1 : ScatterDims S10 S32000000x1 S32000000 where
  updateWindowDims := []
  insertedWindowDims := [0]
  scatterDimsToOperandDims := [0]
  indexVectorDim := 1
  wf := scatter_S10_S32000000x1_S32000000_n_0_0_1_wf
def gather_S10_S2000000x16x1_S2000000x16_n_0_n_n_0_2_1 : GatherDims S10 S2000000x16x1 S2000000x16 where
  offsetDims := []
  collapsedSliceDims := [0]
  operandBatchingDims := []
  startIndicesBatchingDims := []
  startIndexMap := [0]
  indexVectorDim := 2
  sliceSizes := ![1]
  wf := gather_S10_S2000000x16x1_S2000000x16_n_0_n_n_0_2_1_wf

class Facts : Prop extends Facts₀ where

variable [Facts]
-- ==== Proof.Spec.lean ====
/-
  GHM-C loss, the mathematics both programs compute at the ideal instance, over literal shapes.

  For logits x, binary targets y and sample weights w, all of shape [2000000, 16]:
    g = |sigmoid x - y|;  a sample is VALID where w > 0;  its BIN is floor (10 g) clipped into 0..9;
    cnt b = the number of valid samples in bin b;  tot = max (number of valid samples) 1;
    n = the number of non-empty bins;  a valid sample of bin b weighs  (tot / max (cnt b) 1) * (1 / max n 1)
    when bin b is non-empty, an invalid one 0;  the loss is  (sum of weight * bce) / tot,  bce the stable
    binary cross-entropy with logits  max x 0 - x y + log1p (exp (-|x|)).
  The sums are sums over the extended reals, so their grouping (by tile of 20000 rows, by row, by lane) is immaterial.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.GhmSpec

/-- The arrays' shape, one tile's (a block of 20000 rows), and the one-row [1, 128] result of each pass. -/
abbrev SA : Shape := ⟨2, ![2000000, 16]⟩
abbrev ST : Shape := ⟨2, ![20000, 16]⟩
abbrev SR : Shape := ⟨2, ![1, 128]⟩

/-- The literals: 0, 1 and 10. -/
abbrev c0 : EReal := FloatOps.ofBits (F := Ideal) .f32 0x00000000#32
abbrev c1 : EReal := FloatOps.ofBits (F := Ideal) .f32 0x3F800000#32
abbrev c10 : EReal := FloatOps.ofBits (F := Ideal) .f32 0x41200000#32

/-- The gradient-norm proxy |sigmoid x - y|. -/
def gOf (x y : EReal) : EReal := FloatOps.absf (F := Ideal) (φ := .f32) (FloatOps.subf (F := Ideal) (φ := .f32) (FloatOps.logistic (F := Ideal) (φ := .f32) x) y)
/-- A sample is valid where its weight is positive, -/
def validOf (w : EReal) : BitVec 1 := FloatOps.cmpf (F := Ideal) (φ := .f32) .ogt w c0
/-- counted as 1, an invalid one as 0. -/
def vfOf (w : EReal) : EReal := FloatOps.uitofp (F := Ideal) .f32 (validOf w)
/-- The bin: floor (10 g), as a 32-bit integer, clipped into 0..9. -/
def binOf (x y : EReal) : BitVec 32 :=
  IntOp.minsi 9#32 (IntOp.maxsi 0#32 (FloatOps.fptosi (F := Ideal) (φ := .f32) 32 (FloatOps.floor (F := Ideal) (φ := .f32) (FloatOps.mulf (F := Ideal) (φ := .f32) (gOf x y) c10))))
/-- The stable cross-entropy with logits: max x 0 - x y + log1p (exp (0 - |x|)). -/
def bceOf (x y : EReal) : EReal :=
  FloatOps.addf (F := Ideal) (φ := .f32) (FloatOps.subf (F := Ideal) (φ := .f32) (FloatOps.maximumf (F := Ideal) (φ := .f32) x c0) (FloatOps.mulf (F := Ideal) (φ := .f32) x y))
    (FloatOps.log1p (F := Ideal) (φ := .f32) (FloatOps.exp (F := Ideal) (φ := .f32) (FloatOps.subf (F := Ideal) (φ := .f32) c0 (FloatOps.absf (F := Ideal) (φ := .f32) x))))

/-! ## The first pass: the histogram -/

/-- The valid samples of bin b, over any index type. -/
def cntOn {ι : Type} [Fintype ι] (x y w : ι → EReal) (b : BitVec 32) : EReal := ∑ e : ι, if binOf (x e) (y e) = b then vfOf (w e) else 0
/-- The valid samples. -/
def totOn {ι : Type} [Fintype ι] (w : ι → EReal) : EReal := ∑ e : ι, vfOf (w e)
/-- The histogram row: lane b < 10 the count of bin b, lane 10 the valid samples, the other lanes 0. -/
def histOn {ι : Type} [Fintype ι] (x y w : ι → EReal) (l : Fin 128) : EReal :=
  if l.val < 10 then cntOn x y w (BitVec.ofNat 32 l.val) else if l.val = 10 then totOn w else 0

/-! ## Between the passes: ten weights and a reciprocal, from the histogram row -/

/-- tot = max (valid samples) 1. -/
def totOf (h10 : EReal) : EReal := FloatOps.maximumf (F := Ideal) (φ := .f32) h10 c1
/-- A bin's weight: tot / max cnt 1 where the bin is non-empty, else 0. -/
def wOf (cb tot : EReal) : EReal :=
  Scalar.select (FloatOps.cmpf (F := Ideal) (φ := .f32) .ogt cb c0) (FloatOps.hostDivf (F := Ideal) (φ := .f32) tot (FloatOps.maximumf (F := Ideal) (φ := .f32) cb c1)) c0
/-- The number of non-empty bins (a host sum: from the literal 0). -/
def nOf (H : Fin 128 → EReal) : EReal :=
  c0 + ∑ b : Fin 10, FloatOps.uitofp (F := Ideal) .f32 (FloatOps.cmpf (F := Ideal) (φ := .f32) .ogt (H (Fin.castLE (by decide) b)) c0)
/-- 1 / max n 1. -/
def invnOf (n : EReal) : EReal := FloatOps.hostDivf (F := Ideal) (φ := .f32) c1 (FloatOps.maximumf (F := Ideal) (φ := .f32) n c1)
/-- The row the second pass reads: lane b < 10 bin b's weight, lane 10 the reciprocal, the other lanes 0. -/
def auxOf (H : Fin 128 → EReal) (l : Fin 128) : EReal :=
  if l.val < 10 then wOf (H l) (totOf (H 10)) else if l.val = 10 then invnOf (nOf H) else c0

/-! ## The second pass: the weighted sum -/

/-- The weight of bin b read off the row by ten selects, bin 9's last (so first to decide). -/
def auxSel (a : Fin 128 → EReal) (b : BitVec 32) : EReal :=
  Scalar.select (IntOp.cmpi .eq b 9#32) (a 9) (Scalar.select (IntOp.cmpi .eq b 8#32) (a 8) (Scalar.select (IntOp.cmpi .eq b 7#32) (a 7)
  (Scalar.select (IntOp.cmpi .eq b 6#32) (a 6) (Scalar.select (IntOp.cmpi .eq b 5#32) (a 5) (Scalar.select (IntOp.cmpi .eq b 4#32) (a 4)
  (Scalar.select (IntOp.cmpi .eq b 3#32) (a 3) (Scalar.select (IntOp.cmpi .eq b 2#32) (a 2) (Scalar.select (IntOp.cmpi .eq b 1#32) (a 1)
  (Scalar.select (IntOp.cmpi .eq b 0#32) (a 0) c0)))))))))
/-- One sample's term: (its bin's weight if valid, else 0) * (1 / max n 1) * bce. -/
def termOf (a : Fin 128 → EReal) (x y w : EReal) : EReal :=
  FloatOps.mulf (F := Ideal) (φ := .f32) (FloatOps.mulf (F := Ideal) (φ := .f32) (Scalar.select (validOf w) (auxSel a (binOf x y)) c0) (a 10)) (bceOf x y)
/-- The sum of the terms, over any index type. -/
def bceOn {ι : Type} [Fintype ι] (a : Fin 128 → EReal) (x y w : ι → EReal) : EReal := ∑ e : ι, termOf a (x e) (y e) (w e)

/-- THE LOSS: (sum of the terms under the row made from the histogram) / tot * 1. -/
def loss (x y w : SA.Idx → EReal) : EReal :=
  FloatOps.mulf (F := Ideal) (φ := .f32)
    (FloatOps.hostDivf (F := Ideal) (φ := .f32) (bceOn (auxOf (histOn x y w)) x y w) (totOf (histOn x y w 10))) c1

/-! ## Tiles: the arrays cut into 100 blocks of 20000 rows -/

/-- Row r, lane j of tile t is row 20000 t + r, lane j of the array. -/
def tileIdx (t : Fin 100) (j : ST.Idx) : SA.Idx :=
  ix2 ⟨20000 * t.val + (j 0).val, by have h0 : (j 0).val < 20000 := idx2_lt0 j; have := t.isLt; omega⟩ ⟨(j 1).val, idx2_lt1 j⟩
/-- Tile t of an array. -/
def tile {α : Type} (f : SA.Idx → α) (t : Fin 100) : ST.Idx → α := fun j => f (tileIdx t j)

/-- The literal 0 is the extended real 0. -/
theorem c0_eq : c0 = 0 := Ideal.ofBits_zero_f32

end Cert.GhmSpec

end
-- ==== Proof.SpecLemmas.lean ====
/-
  The specification's sums regroup by tile, and its literals and bins are what they read as.
-/
import proofs.«168187_j51591147159894_1_alg».proof.Proof.Spec
import Mathlib.Logic.Equiv.Fin.Basic

noncomputable section

open Idealize.ShloMosaic Idealize.ShloMosaic.ValueIdx

namespace Cert.GhmSpec

/-! ## Sums by blocks of consecutive indices -/

/-- Index b of block a, the blocks n long, is below N = m n. -/
theorem block_lt {m n N : Nat} (h : m * n = N) (a : Fin m) (b : Fin n) : n * a.val + b.val < N :=
  calc n * a.val + b.val < n * a.val + n := Nat.add_lt_add_left b.isLt _
    _ = n * (a.val + 1) := (Nat.mul_succ n a.val).symm
    _ ≤ n * m := Nat.mul_le_mul_left n a.isLt
    _ = N := by rw [Nat.mul_comm]; exact h

/-- A sum over the N = m n first naturals is the sum over m blocks of the sums over each block's n consecutive indices:
    k ↦ (k / n, k % n) is a bijection onto the pairs, with inverse (a, b) ↦ n a + b. -/
theorem sum_fin_blocks {M : Type} [AddCommMonoid M] (m n N : Nat) (h : m * n = N) (g : Fin N → M) :
    ∑ a : Fin m, ∑ b : Fin n, g ⟨n * a.val + b.val, block_lt h a b⟩ = ∑ k : Fin N, g k := by
  subst h
  symm
  rw [← Equiv.sum_comp finProdFinEquiv g, Fintype.sum_prod_type]
  refine Fintype.sum_congr _ _ (fun a => Fintype.sum_congr _ _ (fun b => ?_))
  exact congrArg g (Fin.ext (Nat.add_comm _ _))

/-- A sum over the array is the sum over the tiles of the sums over each tile. -/
theorem sum_tiles {M : Type} [AddCommMonoid M] (f : SA.Idx → M) : ∑ t : Fin 100, ∑ j : ST.Idx, f (tileIdx t j) = ∑ e : SA.Idx, f e :=
  calc ∑ t : Fin 100, ∑ j : ST.Idx, f (tileIdx t j)
      = ∑ t : Fin 100, ∑ r : Fin 20000, ∑ c : Fin 16, f (ix2 ⟨20000 * t.val + r.val, block_lt (by norm_num) t r⟩ c) :=
        Fintype.sum_congr _ _ (fun t => sum_idx2 (fun j => f (tileIdx t j)))
    _ = ∑ a : Fin 2000000, ∑ c : Fin 16, f (ix2 a c) :=
        sum_fin_blocks 100 20000 2000000 (by norm_num) (fun a => ∑ c : Fin 16, f (ix2 a c))
    _ = ∑ e : SA.Idx, f e := (sum_idx2 f).symm

/-- So the histogram row of the array is the sum of the tiles' rows, lane by lane, -/
theorem sum_histOn_tile (x y w : SA.Idx → EReal) (l : Fin 128) :
    ∑ t : Fin 100, histOn (tile x t) (tile y t) (tile w t) l = histOn x y w l := by
  unfold histOn
  split_ifs with h1 h2
  · exact sum_tiles (fun e => if binOf (x e) (y e) = BitVec.ofNat 32 l.val then vfOf (w e) else 0)
  · exact sum_tiles (fun e => vfOf (w e))
  · exact Finset.sum_const_zero

/-- and the weighted sum of the array the sum of the tiles'. -/
theorem sum_bceOn_tile (a : Fin 128 → EReal) (x y w : SA.Idx → EReal) :
    ∑ t : Fin 100, bceOn a (tile x t) (tile y t) (tile w t) = bceOn a x y w :=
  sum_tiles (fun e => termOf a (x e) (y e) (w e))

/-- The literal 1 is the extended real 1. -/
theorem c1_eq : c1 = 1 := IdealRules.sign_bit.ideal_onePat .f32

/-- A 32-bit word clipped into 0..9 as a signed integer is below 10 as a natural. -/
theorem clip_toNat_lt (z : BitVec 32) : (IntOp.minsi 9#32 (IntOp.maxsi 0#32 z)).toNat < 10 := by
  unfold IntOp.minsi IntOp.maxsi
  by_cases h0 : z.slt 0#32 = true
  · -- z is negative: the maximum with 0 is 0, and 9 is not below 0
    rw [if_pos h0]; decide
  · rw [if_neg h0]
    by_cases h9 : (9#32).slt z = true
    · -- z is above 9: the minimum with 9 is 9
      rw [if_pos h9]; decide
    · -- 0 ≤ z ≤ 9 as signed integers, so z's natural value is its signed one
      rw [if_neg h9]
      have e0 : (0#32 : BitVec 32).toInt = 0 := by decide
      have e9 : (9#32 : BitVec 32).toInt = 9 := by decide
      have h0' : ¬ z.toInt < 0 := by
        intro hlt; exact h0 (by simp only [BitVec.slt, e0]; exact decide_eq_true hlt)
      have h9' : ¬ (9 : Int) < z.toInt := by
        intro hlt; exact h9 (by simp only [BitVec.slt, e9]; exact decide_eq_true hlt)
      have hz := z.isLt
      rw [BitVec.toInt_eq_toNat_cond] at h0' h9'
      split_ifs at h0' h9' <;> omega

/-- A bin is one of 0..9. -/
theorem binOf_lt (x y : EReal) : (binOf x y).toNat < 10 := clip_toNat_lt _

/-- A 32-bit word below 10 is one of the ten words 0, …, 9. -/
theorem eq_of_toNat_lt_ten (b : BitVec 32) (h : b.toNat < 10) :
    b = 0#32 ∨ b = 1#32 ∨ b = 2#32 ∨ b = 3#32 ∨ b = 4#32 ∨ b = 5#32 ∨ b = 6#32 ∨ b = 7#32 ∨ b = 8#32 ∨ b = 9#32 := by
  generalize hn : b.toNat = n at h
  interval_cases n
  · exact Or.inl (BitVec.eq_of_toNat_eq hn)
  · exact Or.inr (Or.inl (BitVec.eq_of_toNat_eq hn))
  · exact Or.inr (Or.inr (Or.inl (BitVec.eq_of_toNat_eq hn)))
  · exact Or.inr (Or.inr (Or.inr (Or.inl (BitVec.eq_of_toNat_eq hn))))
  · exact Or.inr (Or.inr (Or.inr (Or.inr (Or.inl (BitVec.eq_of_toNat_eq hn)))))
  · exact Or.inr (Or.inr (Or.inr (Or.inr (Or.inr (Or.inl (BitVec.eq_of_toNat_eq hn))))))
  · exact Or.inr (Or.inr (Or.inr (Or.inr (Or.inr (Or.inr (Or.inl (BitVec.eq_of_toNat_eq hn)))))))
  · exact Or.inr (Or.inr (Or.inr (Or.inr (Or.inr (Or.inr (Or.inr (Or.inl (BitVec.eq_of_toNat_eq hn))))))))
  · exact Or.inr (Or.inr (Or.inr (Or.inr (Or.inr (Or.inr (Or.inr (Or.inr (Or.inl (BitVec.eq_of_toNat_eq hn)))))))))
  · exact Or.inr (Or.inr (Or.inr (Or.inr (Or.inr (Or.inr (Or.inr (Or.inr (Or.inr (BitVec.eq_of_toNat_eq hn)))))))))

/-- So a bin is one of the ten words 0, …, 9. -/
theorem binOf_cases (x y : EReal) :
    binOf x y = 0#32 ∨ binOf x y = 1#32 ∨ binOf x y = 2#32 ∨ binOf x y = 3#32 ∨ binOf x y = 4#32 ∨ binOf x y = 5#32 ∨
      binOf x y = 6#32 ∨ binOf x y = 7#32 ∨ binOf x y = 8#32 ∨ binOf x y = 9#32 :=
  eq_of_toNat_lt_ten _ (binOf_lt x y)

end Cert.GhmSpec

end
-- ==== Proof.HistDef.lean ====
/-
  The first pass's row as a function of its inputs: what the histogram kernel's body stores, composed from the body's payloads.
-/
import proofs.«168187_j51591147159894_1_alg».proof.Proof.Gen.KernelIdeal.Skeleton

noncomputable section

open Idealize.ShloMosaic Idealize.ShloMosaic.TcCoe

namespace Cert.KernelIdeal.Hist

open Cert.KernelIdeal Cert.KernelIdeal.Gen

variable {F : FTy → Type} [FloatOps F]

/-- The lane numbers 0..127 along the row. -/
abbrev lanes : IVec S1x128 32 := iota .tc S1x128 32 [1] iota_S1x128_d1_w32

/-- The row the body leaves: over the row `xo` found in the output buffer, the tile's histogram row of the three input
    blocks (logits, targets, weights), the body's arithmetic as its payloads compose. -/
def histRow (x0 x1 x2 : Vec F S20000x16 .f32) (xo : Vec F S1x128 .f32) : FVec F S1x128 .f32 :=
  k0_pay1 (k0_pay3 x2) lanes
    (k0_pay12 (k0_pay3 x2) (k0_pay4 x0 x1) lanes
      (k0_pay9 (k0_pay3 x2) (k0_pay4 x0 x1) lanes
        (k0_pay6 (k0_pay3 x2) (k0_pay4 x0 x1) lanes (k0_pay5 x0 x1 x2) 1#32)
        (k0_pay7 lanes) (k0_pay8 (k0_pay3 x2) (k0_pay4 x0 x1)))
      (k0_pay10 (k0_pay3 x2) (k0_pay4 x0 x1)) (k0_pay11 lanes))
    (k0_pay13 (k0_pay3 x2) (k0_pay4 x0 x1)) xo

end Cert.KernelIdeal.Hist

end
-- ==== Proof.Hist.lean ====
/-
  The first pass (the histogram kernel) read as values.

  At each of the 100 grid points the body adds, into the one [1, 128] output row that stays in its staging buffer from
  point to point, the point's tile's histogram row: lane b < 10 the number of the tile's valid samples of bin b, lane 10
  the tile's valid samples, 0 elsewhere. Point 0 first stores the zero row. The row is written back once, after the last
  point, so the result array ends at the sum over the tiles: the histogram row of the whole arrays.
-/
import proofs.«168187_j51591147159894_1_alg».proof.Proof.Spec
import proofs.«168187_j51591147159894_1_alg».proof.Proof.HistDef
import proofs.«168187_j51591147159894_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.GhmSpec

variable {F : FTy → Type} [FloatOps F]

theorem hz : (![0, 0] : Fin 2 → Nat) = fun _ => 0 := funext fun a => by fin_cases a <;> rfl

/-- At a point other than the first the body's one covering store leaves that row over what the buffer held. -/
theorem out0_B (c : Dev nD) (i : grid0.Coords) (a1 : Memref sig .tc .vmem S20000x16 .f32) (h1 : a1.IsWhole)
    (a2 : Memref sig .tc .vmem S20000x16 .f32) (h2 : a2.IsWhole) (a3 : Memref sig .tc .vmem S20000x16 .f32) (h3 : a3.IsWhole)
    (a4 : Memref sig .tc .vmem S1x128 .f32) (h4 : a4.IsWhole) (hc : ¬cond0_0 i)
    (x0 x1 x2 : Vec F S20000x16 .f32) (xo : Vec F S1x128 .f32) :
    out0_B_3 c i a1 h1 a2 h2 a3 h3 a4 h4 hc x0 x1 x2 xo = histRow x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S20000x16) hz, View.ld_unit_zero (S := S1x128) hz]
  rfl

/-- At the first point the body stores the zero row first and reads it back: the row over zeros. -/
theorem out0_A (c : Dev nD) (i : grid0.Coords) (a1 : Memref sig .tc .vmem S20000x16 .f32) (h1 : a1.IsWhole)
    (a2 : Memref sig .tc .vmem S20000x16 .f32) (h2 : a2.IsWhole) (a3 : Memref sig .tc .vmem S20000x16 .f32) (h3 : a3.IsWhole)
    (a4 : Memref sig .tc .vmem S1x128 .f32) (h4 : a4.IsWhole) (hc : cond0_0 i)
    (x0 x1 x2 : Vec F S20000x16 .f32) :
    out0_A_3 c i a1 h1 a2 h2 a3 h3 a4 h4 hc x0 x1 x2 = histRow x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x128) hz]
  simp only [View.readAt_eq_ld, h1.read_unread, h2.read_unread, h3.read_unread,
    View.ld_unit_zero (S := S20000x16) hz, View.ld_unit_zero (S := S1x128) hz, View.readCov_unit_zero (S := S1x128) _ hz]
  rfl

section Run
variable (V : (c : Dev nD) → (b : Ref sig .tc) → Buf (Elt F) ((c : Thread nD τ).loc b))

/-- The three input blocks at a point, at their literal type. -/
abbrev xb (c : Dev nD) (t : Fin cfg0.N) : Vec F S20000x16 .f32 := iblk0 V c 0 t
abbrev yb (c : Dev nD) (t : Fin cfg0.N) : Vec F S20000x16 .f32 := iblk0 V c 1 t
abbrev wb (c : Dev nD) (t : Fin cfg0.N) : Vec F S20000x16 .f32 := iblk0 V c 2 t

/-- The running row after point n: the zero row, then each point's tile added in point order. -/
def rows (c : Dev nD) : (n : ℕ) → n < cfg0.N → Vec F S1x128 .f32
  | 0, h => histRow (xb V c ⟨0, h⟩) (yb V c ⟨0, h⟩) (wb V c ⟨0, h⟩) (k0_pay2 (F := F))
  | n + 1, h => histRow (xb V c ⟨n + 1, h⟩) (yb V c ⟨n + 1, h⟩) (wb V c ⟨n + 1, h⟩) (rows c n (Nat.lt_of_succ_lt h))

theorem lt99 : 99 < cfg0.N := by rw [show cfg0.N = 100 from N_0]; decide

end Run

end Cert.KernelIdeal.Hist

end
-- ==== Proof.HistRun.lean ====
/-
  The first pass's output row, point by point: the generated recursion over the body's found pieces is the running row,
  and the one write-back after the last point leaves the last running row in the result array.
-/
import proofs.«168187_j51591147159894_1_alg».proof.Proof.Hist

noncomputable section

open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.GhmSpec

variable {F : FTy → Type} [FloatOps F]
variable (V : (c : Dev nD) → (b : Ref sig .tc) → Buf (Elt F) ((c : Thread nD τ).loc b))

/-- What the output's staging buffer holds after point n is the running row, by induction on the point. -/
theorem outsAt0_eq (c : Dev nD) : ∀ (n : ℕ) (h : n < cfg0.N), outsAt0 V c n h = rows V c n h := by
  intro n
  induction n with
  | zero =>
    -- the first point is the one that stores the zero row before it adds its tile's row
    intro h
    exact (outsAt0_A V c ⟨0, h⟩ (Nat.zero_mod 100)).trans (out0_A ..)
  | succ n ih =>
    -- a later point n + 1 < 100 is not a multiple of 100: it adds its tile's row to what point n left
    intro h
    have hlt : n + 1 < 100 := lt_of_lt_of_eq h N_0
    have hne : ¬(⟨n + 1, h⟩ : Fin cfg0.N).val % 100 = 0 := by
      show ¬(n + 1) % 100 = 0
      omega
    rw [outsAt0_B V c ⟨n + 1, h⟩ hne, out0_B]
    show histRow _ _ _ (outsAt0 V c n _) = histRow _ _ _ (rows V c n _)
    rw [ih]

/-- The row is written back at one point only, the last of the 100. -/
theorem eq_last_of_flush (t : Fin cfg0.N) (hf : (cfg0.win 3).flush t = true) : t = ⟨99, lt99⟩ := by
  have hm : t.val % 100 = 99 := (flush0_3 t).mp hf
  have hlt : t.val < 100 := lt_of_lt_of_eq t.isLt N_0
  apply Fin.ext
  show t.val = 99
  omega

/-- The output's block index is (0, 0) at the last point: its block starts at the array's origin. -/
theorem off_last : (fun a => win0_3.index ⟨99, lt99⟩ a * main_v0.ty.shape.size a) = fun _ => 0 :=
  funext fun a => by fin_cases a <;> decide +kernel

/-- What the write-back writes is the block of the last running row: the block at the origin of a [1, 128] array,
    of the array's own sizes, read through zero offsets, is the array. -/
theorem flushed0 (c : Dev nD) (t : Fin cfg0.N) (hf : (cfg0.win 3).flush t = true) :
    (dat0 V c).flushed 3 t = ((cfg0.win 3).blk t).view.read (Elt F) (rows V c 99 lt99) := by
  obtain rfl := eq_last_of_flush t hf
  show (cfg0.win 3).cut (grid0.coords ⟨99, lt99⟩) ((dat0 V c).after 3 ⟨99, lt99⟩) = _
  rw [after0_3, outsAt0_eq]
  refine (Memref.read_access_unit_zero (Elt F) main_v0 off_last (fun a => ?_) (rows V c 99 lt99)).symm
  rw [congrFun off_last a, Nat.zero_add]

/-- The one write-back, after the last point, covers the [1, 128] result array: it ends at the last running row. -/
theorem final0 (c : Dev nD) : (dat0 V c).arrAt 3 cfg0.N = rows V c 99 lt99 := by
  refine (dat0 V c).arrAt_eq_of_cover 3 (rows V c 99 lt99) (flushed0 V c) fun i =>
    ⟨⟨99, lt99⟩, (flush0_3 ⟨99, lt99⟩).mpr rfl, ?_⟩
  -- every index (i0, i1) of the array has 0 ≤ i0 < 1 and 0 ≤ i1 < 128: it lies in the block at the origin
  show i ∈ ((View.whole main_v0).slice (win0_3.rect ⟨99, lt99⟩)).set
  rw [View.set_slice_whole]
  exact View.mem_set_unit_zero (S := S1x128) off_last _ i

end Cert.KernelIdeal.Hist

end
-- ==== Proof.HistRow.lean ====
/-
  The first pass's row at the ideal instance, lane by lane: what was in the buffer plus the tile's histogram row.

  The body sums, for each bin b of 0..9, the valid indicator over the samples of the tile whose bin is b (along the lanes,
  then along the rows), multiplies the sum by the indicator of lane b along the row and adds the product to the row
  built so far, from the zero row; the sum of the valid indicator over the whole tile goes to lane 10 the same way. Over
  the extended reals x * 0 = 0, x * 1 = x and 0 + x = x for every x, so lane l of the result holds bin l's count for
  l < 10, the number of valid samples for l = 10, and 0 otherwise: the specification's histogram row of the tile.
-/
import proofs.«168187_j51591147159894_1_alg».proof.Proof.Spec
import proofs.«168187_j51591147159894_1_alg».proof.Proof.SpecLemmas
import proofs.«168187_j51591147159894_1_alg».proof.Proof.HistDef
import Idealize.ShloMosaic.PureOps.Ideal.Laws
import Idealize.ShloMosaic.Lib.Affine
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.Hist

open Cert.KernelIdeal Cert.KernelIdeal.Gen Cert.GhmSpec

section Defs
variable {F : FTy → Type} [FloatOps F]

/-- A tile's sum as the body takes it: along the lanes, then along the rows, read at the one index left. -/
def tileSum (w : FVec F S20000x16 .f32) : F .f32 :=
  extractAt ![0, 0]
    (shapeCast S1x1
      (multiReduction .add [0] S1
        (shapeCast S20000x1 (multiReduction .add [1] S20000 w 0x00000000#32 reduces_S20000x16_S20000 (.inl rfl) rfl)
          shapeCasts_S20000_S20000x1)
        0x00000000#32 reduces_S20000x1_S1 (.inl rfl) rfl)
      shapeCasts_S1_S1x1)
    inpos_S1x1_p0_0

/-- The valid indicator where the bin is b, zero elsewhere. -/
def binTerms (v12 : FVec F S20000x16 .f32) (v20 : IVec S20000x16 32) (b : BitVec 32) : FVec F S20000x16 .f32 :=
  select (cmpi .eq v20 (broadcast S20000x16 b)) v12 (broadcast S20000x16 (Scalar.ofBits .f32 0x00000000#32))

/-- The indicator of lane b along the row, as a float. -/
def laneInd (b : BitVec 32) : FVec F S1x128 .f32 :=
  sitofp .f32 (extui 32 (cmpi .eq lanes (broadcast S1x128 b)) natLt_1_32)

/-- The row after the first n bins: from the zero row, bin k's count times lane k's indicator added for k = 0, …, n - 1
    in turn. -/
def accRow (v12 : FVec F S20000x16 .f32) (v20 : IVec S20000x16 32) : Nat → FVec F S1x128 .f32
  | 0 => broadcast S1x128 (Scalar.ofBits .f32 0x00000000#32)
  | n + 1 => addf (accRow v12 v20 n)
      (mulf (broadcast S1x128 (tileSum (binTerms v12 v20 (BitVec.ofNat 32 n)))) (laneInd (BitVec.ofNat 32 n)))

/-- The row the body leaves is what was there plus the ten bins' terms and the total's, in the body's order. -/
theorem histRow_eq (x0 x1 x2 : Vec F S20000x16 .f32) (xo : Vec F S1x128 .f32) :
    histRow x0 x1 x2 xo =
      addf (shapeCast S1x128 xo shapeCasts_S1x128_S1x128)
        (addf (accRow (k0_pay3 x2) (k0_pay4 x0 x1) 10)
          (mulf (broadcast S1x128 (tileSum (k0_pay3 x2))) (laneInd 10#32))) := rfl

end Defs

/-- The sum of the row sums, at the one index of the one-element result, is the sum over the tile. -/
theorem rowSums_eq (w : FVec Ideal S20000x16 .f32) (j : S1.Idx) :
    multiReduction .add [0] S1
        (shapeCast S20000x1 (multiReduction .add [1] S20000 w 0x00000000#32 reduces_S20000x16_S20000 (.inl rfl) rfl)
          shapeCasts_S20000_S20000x1)
        0x00000000#32 reduces_S20000x1_S1 (.inl rfl) rfl j = ∑ e : S20000x16.Idx, w e := by
  refine (Ideal.multiReduction_add_single (φ := .f32) _ 0x00000000#32 reduces_S20000x1_S1 (.inl rfl) rfl j).trans ?_
  refine Eq.trans ?_ (sum_idx2 w).symm
  refine Finset.sum_congr rfl fun k _ => ?_
  refine (shapeCast_apply _ shapeCasts_S20000_S20000x1 _ (ix1 (n := 20000) k) ?_).trans ?_
  · rw [Shape.rowMajor_val_one, Shape.rowMajor_val_two]
    have h0 : (reduces_S20000x1_S1.lift j k 0).val = k.val := rfl
    have h1 : (reduces_S20000x1_S1.lift j k 1).val = (j 0).val := rfl
    have hj : (j 0).val < 1 := (j 0).isLt
    show k.val = (reduces_S20000x1_S1.lift j k 0).val * 1 + (reduces_S20000x1_S1.lift j k 1).val
    omega
  · refine (Ideal.multiReduction_add_single (φ := .f32) w 0x00000000#32 reduces_S20000x16_S20000 (.inl rfl) rfl _).trans ?_
    refine Finset.sum_congr rfl fun c _ => ?_
    exact congrArg w (funext fun a => Fin.ext (match a with | ⟨0, _⟩ => rfl | ⟨1, _⟩ => rfl))

/-- At the ideal instance it is the sum over the tile. -/
theorem tileSum_eq (w : FVec Ideal S20000x16 .f32) : tileSum w = ∑ e : S20000x16.Idx, w e :=
  rowSums_eq w _

/-- Where the bin is b the term is the valid indicator, elsewhere 0. -/
theorem binTerms_apply (v12 : FVec Ideal S20000x16 .f32) (v20 : IVec S20000x16 32) (b : BitVec 32) (e : S20000x16.Idx) :
    binTerms v12 v20 b e = if v20 e = b then v12 e else 0 := by
  show (if IntOp.cmpi .eq (v20 e) b = 1#1 then v12 e else Ideal.ofBits .f32 0x00000000#32) = _
  rw [Ideal.ofBits_zero_f32]
  simp only [IntOp.cmpi_eq]

/-- The lane numbers: lane l reads l. -/
theorem lanes_apply (l : Fin 128) : lanes (ix2 (0 : Fin 1) l) = BitVec.ofNat 32 l.val :=
  iota_single_apply .tc S1x128 32 1 iota_S1x128_d1_w32 _

/-- A one-bit word widened and read signed: 1 for the bit 1, 0 for the bit 0. -/
theorem bit_toInt (c : BitVec 1) : (c.setWidth 32).toInt = if c = 1#1 then 1 else 0 := by
  revert c; decide

/-- Two lane numbers are one word exactly when they are one number. -/
theorem ofNat_lane_eq_iff (n : Nat) (hn : n < 128) (l : Fin 128) : BitVec.ofNat 32 l.val = BitVec.ofNat 32 n ↔ l.val = n := by
  have hl := l.isLt
  constructor
  · intro h
    have := congrArg BitVec.toNat h
    simp only [BitVec.toNat_ofNat] at this
    omega
  · intro h; rw [h]

/-- Lane n's indicator is 1 at lane n and 0 at the other lanes. -/
theorem laneInd_apply (n : Nat) (hn : n < 128) (l : Fin 128) :
    laneInd (F := Ideal) (BitVec.ofNat 32 n) (ix2 (0 : Fin 1) l) = if l.val = n then 1 else 0 := by
  show (((((IntOp.cmpi .eq (lanes (ix2 (0 : Fin 1) l)) (BitVec.ofNat 32 n)).setWidth 32).toInt : ℝ)) : EReal) = _
  rw [lanes_apply, bit_toInt]
  simp only [IntOp.cmpi_eq, ofNat_lane_eq_iff n hn l]
  split <;> simp

/-- No bin yet: the zero row. -/
theorem accRow_zero {F : FTy → Type} [FloatOps F] (v12 : FVec F S20000x16 .f32) (v20 : IVec S20000x16 32) :
    accRow v12 v20 0 = broadcast S1x128 (Scalar.ofBits .f32 0x00000000#32) := rfl

/-- One more bin: its count times its lane's indicator, added. -/
theorem accRow_succ {F : FTy → Type} [FloatOps F] (v12 : FVec F S20000x16 .f32) (v20 : IVec S20000x16 32) (n : Nat) :
    accRow v12 v20 (n + 1) = addf (accRow v12 v20 n)
      (mulf (broadcast S1x128 (tileSum (binTerms v12 v20 (BitVec.ofNat 32 n)))) (laneInd (BitVec.ofNat 32 n))) := rfl

/-- After the first n bins, lane l below n holds bin l's count and the other lanes 0. -/
theorem accRow_apply (v12 : FVec Ideal S20000x16 .f32) (v20 : IVec S20000x16 32) (n : Nat) (hn : n ≤ 128) (l : Fin 128) :
    accRow v12 v20 n (ix2 (0 : Fin 1) l)
      = if l.val < n then tileSum (binTerms v12 v20 (BitVec.ofNat 32 l.val)) else 0 := by
  induction n with
  | zero =>
    rw [accRow_zero, broadcast_apply, if_neg (Nat.not_lt_zero _)]
    exact Ideal.ofBits_zero_f32
  | succ n ih =>
    rw [accRow_succ, addf_apply, mulf_apply, broadcast_apply, ih (by omega), laneInd_apply n (by omega) l]
    by_cases h1 : l.val < n
    · rw [if_pos h1, if_neg (by omega), if_pos (by omega), mul_zero, add_zero]
    · by_cases h2 : l.val = n
      · rw [if_neg h1, if_pos h2, if_pos (by omega), mul_one, zero_add, h2]
      · rw [if_neg h1, if_neg h2, if_neg (by omega), mul_zero, add_zero]
/-- The valid indicator the body computes is the specification's. -/
theorem pay3_apply (x2 : Vec Ideal S20000x16 .f32) (e : S20000x16.Idx) : k0_pay3 x2 e = vfOf (x2 e) := by
  show (((((FloatOps.cmpf (F := Ideal) (φ := .f32) .ogt (x2 e) (Scalar.ofBits .f32 0x00000000#32)).setWidth 32).toInt : ℝ)) : EReal)
      = (((validOf (x2 e)).toNat : ℝ) : EReal)
  have hc : FloatOps.cmpf (F := Ideal) (φ := .f32) .ogt (x2 e) (Scalar.ofBits .f32 0x00000000#32) = validOf (x2 e) := rfl
  rw [hc]
  have hb : ∀ c : BitVec 1, (c.setWidth 32).toInt = (c.toNat : ℤ) := by decide
  rw [hb]
  simp

/-- The bin the body computes is the specification's. -/
theorem pay4_apply (x0 x1 : Vec Ideal S20000x16 .f32) (e : S20000x16.Idx) : k0_pay4 x0 x1 e = binOf (x0 e) (x1 e) := rfl

/-- The zero row is zero. -/
theorem zeroRow_apply (i : S1x128.Idx) : k0_pay2 (F := Ideal) i = 0 := Ideal.ofBits_zero_f32

/-- Lane l of the row: what was there plus the tile's histogram row at l. -/
theorem histRow_apply (x0 x1 x2 : Vec Ideal S20000x16 .f32) (xo : Vec Ideal S1x128 .f32) (l : Fin 128) :
    histRow x0 x1 x2 xo (ix2 0 l) = xo (ix2 0 l) + histOn x0 x1 x2 l := by
  rw [histRow_eq, addf_apply, addf_apply, mulf_apply, broadcast_apply, shapeCast_self,
    accRow_apply _ _ 10 (by omega) l, laneInd_apply 10 (by omega) l]
  refine congrArg (xo (ix2 (0 : Fin 1) l) + ·) ?_
  unfold histOn
  by_cases h1 : l.val < 10
  · rw [if_pos h1, if_neg (by omega), if_pos h1, mul_zero, add_zero, tileSum_eq]
    unfold cntOn
    refine Finset.sum_congr rfl fun e _ => ?_
    rw [binTerms_apply, pay3_apply, pay4_apply]
  · rw [if_neg h1, if_neg h1, zero_add]
    by_cases h2 : l.val = 10
    · rw [if_pos h2, if_pos h2, mul_one, tileSum_eq]
      unfold totOn
      exact Finset.sum_congr rfl fun e _ => pay3_apply x2 e
    · rw [if_neg h2, if_neg h2, mul_zero]

end Cert.KernelIdeal.Hist

end
-- ==== Proof.HistFinal.lean ====
/-
  The first pass's result array is the histogram row of the whole arrays: each window's block at point t is tile t of its
  array, the running row after the last point is the sum of the tiles' rows, and the tiles' rows sum to the arrays' row.
-/
import proofs.«168187_j51591147159894_1_alg».proof.Proof.Spec
import proofs.«168187_j51591147159894_1_alg».proof.Proof.SpecLemmas
import proofs.«168187_j51591147159894_1_alg».proof.Proof.Hist
import proofs.«168187_j51591147159894_1_alg».proof.Proof.HistRun
import proofs.«168187_j51591147159894_1_alg».proof.Proof.HistRow

noncomputable section

open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.GhmSpec

variable (V : (c : Dev nD) → (b : Ref sig .tc) → Buf (Elt Ideal) ((c : Thread nD τ).loc b))

/-- The three input windows' index maps, over the grid: the block row index is the point, the column block is 0. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)

/-- The window's block at point t is tile t of its array (block row index t, 20000 rows a block): element (r, k) of
    the block is the array's element (t * 20000 + 1 * r, 0 * 16 + 1 * k). -/
theorem xb_eq (c : Dev nD) (t : Fin cfg0.N) : xb V c t = tile (V c main_arg0) (Fin.cast N_0 t) := by
  funext j
  show iblk0 V c 0 t j = V c main_arg0 (tileIdx (Fin.cast N_0 t) j)
  unfold iblk0
  rw [View.read_apply]
  show V c main_arg0 _ = V c main_arg0 _
  congr 1
  funext a
  apply Fin.ext
  match a with
  | ⟨0, _⟩ => show win0_0.index t 0 * 20000 + 1 * (j 0).val = 20000 * t.val + (j 0).val; rw [(idx0_0 t).1]; omega
  | ⟨1, _⟩ => show win0_0.index t 1 * 16 + 1 * (j 1).val = (j 1).val; rw [(idx0_0 t).2]; omega
theorem yb_eq (c : Dev nD) (t : Fin cfg0.N) : yb V c t = tile (V c main_arg1) (Fin.cast N_0 t) := by
  funext j
  show iblk0 V c 1 t j = V c main_arg1 (tileIdx (Fin.cast N_0 t) j)
  unfold iblk0
  rw [View.read_apply]
  show V c main_arg1 _ = V c main_arg1 _
  congr 1
  funext a
  apply Fin.ext
  match a with
  | ⟨0, _⟩ => show win0_1.index t 0 * 20000 + 1 * (j 0).val = 20000 * t.val + (j 0).val; rw [(idx0_1 t).1]; omega
  | ⟨1, _⟩ => show win0_1.index t 1 * 16 + 1 * (j 1).val = (j 1).val; rw [(idx0_1 t).2]; omega
theorem wb_eq (c : Dev nD) (t : Fin cfg0.N) : wb V c t = tile (V c main_arg2) (Fin.cast N_0 t) := by
  funext j
  show iblk0 V c 2 t j = V c main_arg2 (tileIdx (Fin.cast N_0 t) j)
  unfold iblk0
  rw [View.read_apply]
  show V c main_arg2 _ = V c main_arg2 _
  congr 1
  funext a
  apply Fin.ext
  match a with
  | ⟨0, _⟩ => show win0_2.index t 0 * 20000 + 1 * (j 0).val = 20000 * t.val + (j 0).val; rw [(idx0_2 t).1]; omega
  | ⟨1, _⟩ => show win0_2.index t 1 * 16 + 1 * (j 1).val = (j 1).val; rw [(idx0_2 t).2]; omega

/-- Tile t's histogram row at lane l, as a function of the natural number t (0 past the last tile). -/
def part (X Y W : SA.Idx → EReal) (l : Fin 128) (t : ℕ) : EReal :=
  if ht : t < 100 then histOn (tile X ⟨t, ht⟩) (tile Y ⟨t, ht⟩) (tile W ⟨t, ht⟩) l else 0

/-- Lane l of the running row after point n is the sum of the histogram rows of tiles 0 … n at lane l: the zero row
    contributes 0, and each point adds its own tile's row. -/
theorem rows_apply (c : Dev nD) (l : Fin 128) : ∀ (n : ℕ) (h : n < cfg0.N),
    rows V c n h (ix2 0 l) = ∑ t ∈ Finset.range (n + 1), part (V c main_arg0) (V c main_arg1) (V c main_arg2) l t := by
  intro n
  induction n with
  | zero =>
    intro h
    show histRow (xb V c ⟨0, h⟩) (yb V c ⟨0, h⟩) (wb V c ⟨0, h⟩) (k0_pay2 (F := Ideal)) (ix2 0 l) = _
    rw [histRow_apply, zeroRow_apply, zero_add, Finset.sum_range_one, xb_eq, yb_eq, wb_eq]
    unfold part
    rw [dif_pos (by decide)]
    rfl
  | succ n ih =>
    intro h
    have hlt : n + 1 < 100 := lt_of_lt_of_eq h N_0
    show histRow (xb V c ⟨n + 1, h⟩) (yb V c ⟨n + 1, h⟩) (wb V c ⟨n + 1, h⟩) (rows V c n (Nat.lt_of_succ_lt h)) (ix2 0 l) = _
    rw [histRow_apply, ih, Finset.sum_range_succ _ (n + 1), xb_eq, yb_eq, wb_eq]
    refine congrArg (fun z => _ + z) ?_
    unfold part
    rw [dif_pos hlt]
    rfl

/-- THE FIRST PASS'S RESULT: lane l of the result array is lane l of the histogram row of the whole arrays as the
    region finds them. -/
theorem hist_final (c : Dev nD) (l : Fin 128) :
    (dat0 V c).arrAt 3 cfg0.N (ix2 0 l) = histOn (V c main_arg0) (V c main_arg1) (V c main_arg2) l := by
  refine (congrFun (final0 V c) (ix2 0 l)).trans ?_
  refine (rows_apply V c l 99 lt99).trans ?_
  show ∑ t ∈ Finset.range 100, part (V c main_arg0) (V c main_arg1) (V c main_arg2) l t = _
  rw [Finset.sum_range, ← sum_histOn_tile]
  refine Finset.sum_congr rfl fun t _ => ?_
  unfold part
  rw [dif_pos t.isLt]

end Cert.KernelIdeal.Hist

end
-- ==== Proof.BceDef.lean ====
/-
  The second pass's row as a function of its inputs: what the cross-entropy kernel's body stores, composed from the body's payloads.
-/
import proofs.«168187_j51591147159894_1_alg».proof.Proof.Gen.KernelIdeal.Skeleton
import Idealize.ShloMosaic.Lib.Pipeline.FrameBody

noncomputable section

open Idealize.ShloMosaic Idealize.ShloMosaic.TcCoe

namespace Cert.KernelIdeal.Bce

open Cert.KernelIdeal Cert.KernelIdeal.Gen

variable {F : FTy → Type} [FloatOps F]

/-- The row the body leaves: over the row `xo` found in the output buffer, the tile's weighted sum in lane 0, of the
    three input blocks (logits, targets, weights) and the row `x3` of bin weights, the body's arithmetic as its
    payloads compose (the eleven one-element loads of `x3` at lanes 10, 0, 1, …, 9). -/
def bceRow (x0 x1 x2 : Vec F S20000x16 .f32) (x3 : Vec F S1x128 .f32) (xo : Vec F S1x128 .f32) : FVec F S1x128 .f32 :=
  k1_pay1 x0 x1 (k1_pay3 x2) (k1_pay4 x0 x1) (k1_pay5 (View.ld x3 (Rect.unit (s := S1x128) ![0, 10] S1x1.size inb_S1x128_S1x1_0_10)))
    (k1_pay7 (k1_pay4 x0 x1)
      (k1_pay6 x0 x1 (View.ld x3 (Rect.unit (s := S1x128) ![0, 0] S1x1.size inb_S1x128_S1x1_0_0)) (View.ld x3 (Rect.unit (s := S1x128) ![0, 1] S1x1.size inb_S1x128_S1x1_0_1)))
      (View.ld x3 (Rect.unit (s := S1x128) ![0, 2] S1x1.size inb_S1x128_S1x1_0_2)) (View.ld x3 (Rect.unit (s := S1x128) ![0, 3] S1x1.size inb_S1x128_S1x1_0_3)) (View.ld x3 (Rect.unit (s := S1x128) ![0, 4] S1x1.size inb_S1x128_S1x1_0_4)) (View.ld x3 (Rect.unit (s := S1x128) ![0, 5] S1x1.size inb_S1x128_S1x1_0_5))
      (View.ld x3 (Rect.unit (s := S1x128) ![0, 6] S1x1.size inb_S1x128_S1x1_0_6)) (View.ld x3 (Rect.unit (s := S1x128) ![0, 7] S1x1.size inb_S1x128_S1x1_0_7)) (View.ld x3 (Rect.unit (s := S1x128) ![0, 8] S1x1.size inb_S1x128_S1x1_0_8)))
    (View.ld x3 (Rect.unit (s := S1x128) ![0, 9] S1x1.size inb_S1x128_S1x1_0_9)) xo

end Cert.KernelIdeal.Bce

end
-- ==== Proof.Bce.lean ====
/-
  The second pass (the weighted cross-entropy kernel) read as values.

  Beside the three input tiles the body reads a [1, 128] row `a` made between the passes: lanes 0..9 the ten bins'
  weights, lane 10 the reciprocal of the number of non-empty bins. At each of the 100 grid points it adds, into lane 0
  of the one [1, 128] output row that stays in its staging buffer from point to point, the sum over the tile of
  (the sample's bin's weight if it is valid, else 0) * a[10] * bce; the other lanes get a product with 0. Point 0 first
  stores the zero row. The row is written back once, after the last point: lane 0 of the result array ends at the sum
  over the whole arrays.
-/
import proofs.«168187_j51591147159894_1_alg».proof.Proof.Spec
import proofs.«168187_j51591147159894_1_alg».proof.Proof.BceDef
import proofs.«168187_j51591147159894_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Bce

open Cert.KernelIdeal Cert.KernelIdeal.Gen Cert.GhmSpec

variable {F : FTy → Type} [FloatOps F]

theorem hz : (![0, 0] : Fin 2 → Nat) = fun _ => 0 := funext fun a => by fin_cases a <;> rfl

/-- At a point other than the first the body's one covering store leaves that row over what the buffer held. -/
theorem out1_B (c : Dev nD) (i : grid1.Coords) (a1 : Memref sig .tc .vmem S20000x16 .f32) (h1 : a1.IsWhole)
    (a2 : Memref sig .tc .vmem S20000x16 .f32) (h2 : a2.IsWhole) (a3 : Memref sig .tc .vmem S20000x16 .f32) (h3 : a3.IsWhole)
    (a4 : Memref sig .tc .vmem S1x128 .f32) (h4 : a4.IsWhole) (a5 : Memref sig .tc .vmem S1x128 .f32) (h5 : a5.IsWhole) (hc : ¬cond1_0 i)
    (x0 x1 x2 : Vec F S20000x16 .f32) (x3 : Vec F S1x128 .f32) (xo : Vec F S1x128 .f32) :
    out1_B_4 c i a1 h1 a2 h2 a3 h3 a4 h4 a5 h5 hc x0 x1 x2 x3 xo = bceRow x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S20000x16) hz, View.ld_unit_zero (S := S1x128) hz]
  rfl

/-- At the first point the body stores the zero row first and reads it back: the row over zeros. -/
theorem out1_A (c : Dev nD) (i : grid1.Coords) (a1 : Memref sig .tc .vmem S20000x16 .f32) (h1 : a1.IsWhole)
    (a2 : Memref sig .tc .vmem S20000x16 .f32) (h2 : a2.IsWhole) (a3 : Memref sig .tc .vmem S20000x16 .f32) (h3 : a3.IsWhole)
    (a4 : Memref sig .tc .vmem S1x128 .f32) (h4 : a4.IsWhole) (a5 : Memref sig .tc .vmem S1x128 .f32) (h5 : a5.IsWhole) (hc : cond1_0 i)
    (x0 x1 x2 : Vec F S20000x16 .f32) (x3 : Vec F S1x128 .f32) :
    out1_A_4 c i a1 h1 a2 h2 a3 h3 a4 h4 a5 h5 hc x0 x1 x2 x3 = bceRow x0 x1 x2 x3 (k1_pay2 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x128) hz]
  simp only [View.readAt_eq_ld, h1.read_unread, h2.read_unread, h3.read_unread, h4.read_unread,
    View.ld_unit_zero (S := S20000x16) hz, View.ld_unit_zero (S := S1x128) hz, View.readCov_unit_zero (S := S1x128) _ hz]
  rfl

section Run
variable (V : (c : Dev nD) → (b : Ref sig .tc) → Buf (Elt F) ((c : Thread nD τ).loc b))

/-- The four input blocks at a point, at their literal type (the fourth window's block is the whole row, at every point). -/
abbrev xb (c : Dev nD) (t : Fin cfg1.N) : Vec F S20000x16 .f32 := iblk1 V c 0 t
abbrev yb (c : Dev nD) (t : Fin cfg1.N) : Vec F S20000x16 .f32 := iblk1 V c 1 t
abbrev wb (c : Dev nD) (t : Fin cfg1.N) : Vec F S20000x16 .f32 := iblk1 V c 2 t
abbrev ab (c : Dev nD) (t : Fin cfg1.N) : Vec F S1x128 .f32 := iblk1 V c 3 t

/-- The running row after point n: the zero row, then each point's tile added in point order. -/
def rows (c : Dev nD) : (n : ℕ) → n < cfg1.N → Vec F S1x128 .f32
  | 0, h => bceRow (xb V c ⟨0, h⟩) (yb V c ⟨0, h⟩) (wb V c ⟨0, h⟩) (ab V c ⟨0, h⟩) (k1_pay2 (F := F))
  | n + 1, h => bceRow (xb V c ⟨n + 1, h⟩) (yb V c ⟨n + 1, h⟩) (wb V c ⟨n + 1, h⟩) (ab V c ⟨n + 1, h⟩) (rows c n (Nat.lt_of_succ_lt h))

theorem lt99 : 99 < cfg1.N := by rw [show cfg1.N = 100 from N_1]; decide

end Run

end Cert.KernelIdeal.Bce

end
-- ==== Proof.BceRun.lean ====
/-
  The second pass's output row, point by point: the generated recursion over the body's found pieces is the running row,
  and the one write-back after the last point leaves the last running row in the result array.
-/
import proofs.«168187_j51591147159894_1_alg».proof.Proof.Bce

noncomputable section

open Idealize.ShloMosaic Idealize.ShloMosaic.TcCoe Idealize.SL.Sem Idealize.ShloMosaic.ValueIdx
open Idealize.ShloMosaic.Pipeline (Dat)

namespace Cert.KernelIdeal.Bce

open Cert.KernelIdeal Cert.KernelIdeal.Gen Cert.GhmSpec

variable {F : FTy → Type} [FloatOps F]
variable (V : (c : Dev nD) → (b : Ref sig .tc) → Buf (Elt F) ((c : Thread nD τ).loc b))

/-- What the output's staging buffer holds after point n is the running row, by induction on the point. -/
theorem outsAt1_eq (c : Dev nD) : ∀ (n : ℕ) (h : n < cfg1.N), outsAt1 V c n h = rows V c n h := by
  intro n
  induction n with
  | zero =>
    -- the first point is the one that stores the zero row before it adds its tile's weighted sum
    intro h
    exact (outsAt1_A V c ⟨0, h⟩ (Nat.zero_mod 100)).trans (out1_A ..)
  | succ n ih =>
    -- a later point n + 1 < 100 is not a multiple of 100: it adds its tile's weighted sum to what point n left
    intro h
    have hlt : n + 1 < 100 := lt_of_lt_of_eq h N_1
    have hne : ¬(⟨n + 1, h⟩ : Fin cfg1.N).val % 100 = 0 := by
      show ¬(n + 1) % 100 = 0
      omega
    rw [outsAt1_B V c ⟨n + 1, h⟩ hne, out1_B]
    show bceRow _ _ _ _ (outsAt1 V c n _) = bceRow _ _ _ _ (rows V c n _)
    rw [ih]

/-- The row is written back at one point only, the last of the 100. -/
theorem eq_last_of_flush (t : Fin cfg1.N) (hf : (cfg1.win 4).flush t = true) : t = ⟨99, lt99⟩ := by
  have hm : t.val % 100 = 99 := (flush1_4 t).mp hf
  have hlt : t.val < 100 := lt_of_lt_of_eq t.isLt N_1
  apply Fin.ext
  show t.val = 99
  omega

/-- The output's block index is (0, 0) at the last point: its block starts at the array's origin. -/
theorem off_last : (fun a => win1_4.index ⟨99, lt99⟩ a * main_v26.ty.shape.size a) = fun _ => 0 :=
  funext fun a => by fin_cases a <;> decide +kernel

/-- What the write-back writes is the block of the last running row: the block at the origin of a [1, 128] array,
    of the array's own sizes, read through zero offsets, is the array. -/
theorem flushed1 (c : Dev nD) (t : Fin cfg1.N) (hf : (cfg1.win 4).flush t = true) :
    (dat1 V c).flushed 4 t = ((cfg1.win 4).blk t).view.read (Elt F) (rows V c 99 lt99) := by
  obtain rfl := eq_last_of_flush t hf
  show (cfg1.win 4).cut (grid1.coords ⟨99, lt99⟩) ((dat1 V c).after 4 ⟨99, lt99⟩) = _
  rw [after1_4, outsAt1_eq]
  refine (Memref.read_access_unit_zero (Elt F) main_v26 off_last (fun a => ?_) (rows V c 99 lt99)).symm
  rw [congrFun off_last a, Nat.zero_add]

/-- The one write-back, after the last point, covers the [1, 128] result array: it ends at the last running row. -/
theorem final1 (c : Dev nD) : (dat1 V c).arrAt 4 cfg1.N = rows V c 99 lt99 := by
  refine (dat1 V c).arrAt_eq_of_cover 4 (rows V c 99 lt99) (flushed1 V c) fun i =>
    ⟨⟨99, lt99⟩, (flush1_4 ⟨99, lt99⟩).mpr rfl, ?_⟩
  -- every index (i0, i1) of the array has 0 ≤ i0 < 1 and 0 ≤ i1 < 128: it lies in the block at the origin
  show i ∈ ((View.whole main_v26).slice (win1_4.rect ⟨99, lt99⟩)).set
  rw [View.set_slice_whole]
  exact View.mem_set_unit_zero (S := S1x128) off_last _ i

end Cert.KernelIdeal.Bce

end
-- ==== Proof.BceRow.lean ====
/-
  The second pass's row at the ideal instance, at lane 0: what was in the buffer plus the tile's weighted sum.
-/
import proofs.«168187_j51591147159894_1_alg».proof.Proof.Spec
import proofs.«168187_j51591147159894_1_alg».proof.Proof.SpecLemmas
import proofs.«168187_j51591147159894_1_alg».proof.Proof.BceDef
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.Bce

open Cert.KernelIdeal Cert.KernelIdeal.Gen Cert.GhmSpec

/-- The zero row is zero. -/
theorem zeroRow_apply (i : S1x128.Idx) : k1_pay2 (F := Ideal) i = 0 := Ideal.ofBits_zero_f32

/-! The row's parts, each read at one element. -/
namespace Row

/-- The valid bit at a sample. -/
theorem valid_apply (x2 : Vec Ideal S20000x16 .f32) (e : S20000x16.Idx) : k1_pay3 x2 e = validOf (x2 e) := rfl

/-- The bin at a sample. -/
theorem bin_apply (x0 x1 : Vec Ideal S20000x16 .f32) (e : S20000x16.Idx) : k1_pay4 x0 x1 e = binOf (x0 e) (x1 e) := rfl

/-- A one-element load of the row at lane k holds the row's lane k. -/
theorem ld_lane (x3 : Vec Ideal S1x128 .f32) (k : Nat) (hk : k < 128)
    (inb : ∀ a, (![0, k] : Fin 2 → Nat) a + S1x1.size a ≤ S1x128.size a) :
    extractAt ![0, 0] (View.ld x3 (Rect.unit (s := S1x128) ![0, k] S1x1.size inb)) inpos_S1x1_p0_0 = x3 (ix2 0 ⟨k, hk⟩) := by
  unfold extractAt
  show x3 _ = x3 _
  congr 1
  funext a
  match a with
  | ⟨0, _⟩ => rfl
  | ⟨1, _⟩ => exact Fin.ext (by show k + 1 * 0 = k; omega)

/-- The first two selects at a sample: bin 0's weight over zero, then bin 1's. -/
theorem pay6_apply (v3 v4 : Vec Ideal S20000x16 .f32) (v22 v28 : Vec Ideal S1x1 .f32) (e : S20000x16.Idx) :
    k1_pay6 v3 v4 v22 v28 e
      = Scalar.select (IntOp.cmpi .eq (k1_pay4 v3 v4 e) 1#32) (extractAt ![0, 0] v28 inpos_S1x1_p0_0)
          (Scalar.select (IntOp.cmpi .eq (k1_pay4 v3 v4 e) 0#32) (extractAt ![0, 0] v22 inpos_S1x1_p0_0) c0) := rfl

/-- The next seven selects at a sample: bins 2 to 8, each over what the bins below it left. -/
theorem pay7_apply (v18 : IVec S20000x16 32) (v33 : FVec Ideal S20000x16 .f32) (v34 v40 v46 v52 v58 v64 v70 : Vec Ideal S1x1 .f32)
    (e : S20000x16.Idx) :
    k1_pay7 v18 v33 v34 v40 v46 v52 v58 v64 v70 e
      = Scalar.select (IntOp.cmpi .eq (v18 e) 8#32) (extractAt ![0, 0] v70 inpos_S1x1_p0_0)
        (Scalar.select (IntOp.cmpi .eq (v18 e) 7#32) (extractAt ![0, 0] v64 inpos_S1x1_p0_0)
        (Scalar.select (IntOp.cmpi .eq (v18 e) 6#32) (extractAt ![0, 0] v58 inpos_S1x1_p0_0)
        (Scalar.select (IntOp.cmpi .eq (v18 e) 5#32) (extractAt ![0, 0] v52 inpos_S1x1_p0_0)
        (Scalar.select (IntOp.cmpi .eq (v18 e) 4#32) (extractAt ![0, 0] v46 inpos_S1x1_p0_0)
        (Scalar.select (IntOp.cmpi .eq (v18 e) 3#32) (extractAt ![0, 0] v40 inpos_S1x1_p0_0)
        (Scalar.select (IntOp.cmpi .eq (v18 e) 2#32) (extractAt ![0, 0] v34 inpos_S1x1_p0_0) (v33 e))))))) := rfl

/-- 32-bit floats are a format the reductions take, -/
theorem fmt32 : FKind.Formats .f32 := .inl rfl
/-- and the zero word is their sum's neutral element. -/
theorem acc32 : (0x00000000#32 : BitVec 32) = FKind.add.neutral .f32 fmt32 := rfl

/-- The tile's sum as the body takes it: over the lanes of each row, then over the rows, the one element left. -/
def total (v : FVec Ideal S20000x16 .f32) : EReal :=
  extractAt ![0, 0]
    (shapeCast S1x1
      (multiReduction .add [0] S1
        (shapeCast S20000x1 (multiReduction .add [1] S20000 v 0x00000000#32 reduces_S20000x16_S20000 fmt32 acc32) shapeCasts_S20000_S20000x1)
        0x00000000#32 reduces_S20000x1_S1 fmt32 acc32)
      shapeCasts_S1_S1x1)
    inpos_S1x1_p0_0

/-- The indicator of lane 0 as the body builds it: the lane number compared with 0, widened, converted. -/
def onehot0 : FVec Ideal S1x128 .f32 :=
  sitofp .f32 (extui 32 (cmpi .eq (iota .tc S1x128 32 [1] iota_S1x128_d1_w32) (broadcast S1x128 0#32)) natLt_1_32)

/-- The samples' products as the body's last payload forms them: the weight selected so far, or bin 9's, where the
    sample is valid, times the reciprocal, times the cross-entropy. -/
def prodVec (v3 v4 : Vec Ideal S20000x16 .f32) (v10 : IVec S20000x16 1) (v18 : IVec S20000x16 32) (v20 : EReal)
    (v75 : FVec Ideal S20000x16 .f32) (w9 : EReal) : FVec Ideal S20000x16 .f32 :=
  mulf
    (mulf
      (select v10 (select (cmpi .eq v18 (broadcast S20000x16 9#32)) (broadcast S20000x16 w9) v75)
        (broadcast S20000x16 (FloatOps.ofBits .f32 0x00000000#32)))
      (broadcast S20000x16 v20))
    (addf (subf (maximumf v3 (broadcast S20000x16 (FloatOps.ofBits .f32 0x00000000#32))) (mulf v3 v4))
      (log1p (exp (subf (broadcast S20000x16 (FloatOps.ofBits .f32 0x00000000#32)) (absf v3)))))

/-- The stored row at a lane: what was there, plus the tile's sum of the samples' products times the indicator of lane 0. -/
theorem pay1_apply (v3 v4 : Vec Ideal S20000x16 .f32) (v10 : IVec S20000x16 1) (v18 : IVec S20000x16 32) (v20 : EReal)
    (v75 : FVec Ideal S20000x16 .f32) (v76 : Vec Ideal S1x1 .f32) (v107 : Vec Ideal S1x128 .f32) (i : S1x128.Idx) :
    k1_pay1 v3 v4 v10 v18 v20 v75 v76 v107 i
      = shapeCast S1x128 v107 shapeCasts_S1x128_S1x128 i
        + total (prodVec v3 v4 v10 v18 v20 v75 (extractAt ![0, 0] v76 inpos_S1x1_p0_0)) * onehot0 i := by
  unfold k1_pay1
  rw [addf_apply, mulf_apply, broadcast_apply]
  unfold total prodVec onehot0
  rfl

/-- A sample's product. -/
theorem prodVec_apply (v3 v4 : Vec Ideal S20000x16 .f32) (v10 : IVec S20000x16 1) (v18 : IVec S20000x16 32) (v20 : EReal)
    (v75 : FVec Ideal S20000x16 .f32) (w9 : EReal) (e : S20000x16.Idx) :
    prodVec v3 v4 v10 v18 v20 v75 w9 e
      = (Scalar.select (v10 e) (Scalar.select (IntOp.cmpi .eq (v18 e) 9#32) w9 (v75 e)) c0 * v20) * bceOf (v3 e) (v4 e) := rfl

/-- The body's two reductions and its two casts leave the sum of the tile's elements. -/
theorem total_eq_sum (v : FVec Ideal S20000x16 .f32) : total v = ∑ e : S20000x16.Idx, v e := by
  unfold total extractAt
  refine (shapeCast_apply _ shapeCasts_S1_S1x1 _ (ix1 0) ?_).trans ?_
  · rw [Shape.rowMajor_val_one, Shape.rowMajor_val_two]; rfl
  rw [Ideal.multiReduction_add_single, sum_idx2]
  refine Finset.sum_congr rfl fun a _ => ?_
  refine (shapeCast_apply _ shapeCasts_S20000_S20000x1 _ (ix1 a) ?_).trans ?_
  · rw [Shape.rowMajor_val_one, Shape.rowMajor_val_two]
    show a.val = a.val * 1 + 0
    omega
  rw [Ideal.multiReduction_add_single]
  refine Finset.sum_congr rfl fun b _ => congrArg v ?_
  funext c
  match c with
  | ⟨0, _⟩ => exact Fin.ext rfl
  | ⟨1, _⟩ => exact Fin.ext rfl

/-- The indicator is 1 at lane 0. -/
theorem onehot0_lane0 : onehot0 (ix2 0 0) = 1 := by
  unfold onehot0
  rw [sitofp_apply, extui_apply]
  show FloatOps.sitofp (F := Ideal) .f32 ((IntOp.cmpi .eq (iota .tc S1x128 32 [1] iota_S1x128_d1_w32 (ix2 0 0)) 0#32).setWidth 32) = 1
  rw [iota_single_apply]
  show (((((IntOp.cmpi .eq (BitVec.ofNat 32 0) 0#32).setWidth 32).toInt : ℤ) : ℝ) : EReal) = 1
  have h : ((IntOp.cmpi .eq (BitVec.ofNat 32 0) 0#32).setWidth 32).toInt = 1 := by decide
  rw [h]
  simp

end Row

open Row in
/-- Lane 0 of the row: what was there plus the tile's weighted sum under the row `x3` read lane by lane. -/
theorem bceRow_apply (x0 x1 x2 : Vec Ideal S20000x16 .f32) (x3 xo : Vec Ideal S1x128 .f32) :
    bceRow x0 x1 x2 x3 xo (ix2 0 0) = xo (ix2 0 0) + bceOn (fun l => x3 (ix2 0 l)) x0 x1 x2 := by
  unfold bceRow
  rw [pay1_apply, shapeCast_self, total_eq_sum, onehot0_lane0, mul_one]
  refine congrArg (xo (ix2 0 0) + ·) ?_
  unfold bceOn
  refine Finset.sum_congr rfl fun e _ => ?_
  rw [prodVec_apply, pay7_apply, pay6_apply, valid_apply, bin_apply]
  unfold k1_pay5
  rw [ld_lane x3 10 (by decide), ld_lane x3 9 (by decide), ld_lane x3 8 (by decide), ld_lane x3 7 (by decide),
    ld_lane x3 6 (by decide), ld_lane x3 5 (by decide), ld_lane x3 4 (by decide), ld_lane x3 3 (by decide),
    ld_lane x3 2 (by decide), ld_lane x3 1 (by decide), ld_lane x3 0 (by decide)]
  rfl

end Cert.KernelIdeal.Bce

end
-- ==== Proof.BceFinal.lean ====
/-
  Lane 0 of the second pass's result array is the weighted sum over the whole arrays: each input window's block at point t
  is tile t of its array, the row of bin weights is read whole at every point, the running row's lane 0 after the last
  point is the sum of the tiles' sums, and the tiles' sums add up to the arrays'.
-/
import proofs.«168187_j51591147159894_1_alg».proof.Proof.Spec
import proofs.«168187_j51591147159894_1_alg».proof.Proof.SpecLemmas
import proofs.«168187_j51591147159894_1_alg».proof.Proof.Bce
import proofs.«168187_j51591147159894_1_alg».proof.Proof.BceRun
import proofs.«168187_j51591147159894_1_alg».proof.Proof.BceRow

noncomputable section

open Idealize.ShloMosaic Idealize.ShloMosaic.TcCoe Idealize.SL.Sem Idealize.ShloMosaic.ValueIdx
open Idealize.ShloMosaic.Pipeline (Dat)

namespace Cert.KernelIdeal.Bce

open Cert.KernelIdeal Cert.KernelIdeal.Gen Cert.GhmSpec

variable (V : (c : Dev nD) → (b : Ref sig .tc) → Buf (Elt Ideal) ((c : Thread nD τ).loc b))

/-- The input windows' index maps, over the grid: for the three arrays the block row index is the point and the column
    block is 0; for the row of bin weights the block index is (0, 0) at every point. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)

/-- The windows' blocks at point t: tile t of the three arrays (block row index t, 20000 rows a block: element (r, k)
    of the block is the array's element (t * 20000 + 1 * r, 0 * 16 + 1 * k)), and the whole row of bin weights (its
    block index never moves). -/
theorem xb_eq (c : Dev nD) (t : Fin cfg1.N) : xb V c t = tile (V c main_arg0) (Fin.cast N_1 t) := by
  funext j
  show iblk1 V c 0 t j = V c main_arg0 (tileIdx (Fin.cast N_1 t) j)
  unfold iblk1
  rw [View.read_apply]
  show V c main_arg0 _ = V c main_arg0 _
  congr 1
  funext a
  apply Fin.ext
  match a with
  | ⟨0, _⟩ => show win1_0.index t 0 * 20000 + 1 * (j 0).val = 20000 * t.val + (j 0).val; rw [(idx1_0 t).1]; omega
  | ⟨1, _⟩ => show win1_0.index t 1 * 16 + 1 * (j 1).val = (j 1).val; rw [(idx1_0 t).2]; omega
theorem yb_eq (c : Dev nD) (t : Fin cfg1.N) : yb V c t = tile (V c main_arg1) (Fin.cast N_1 t) := by
  funext j
  show iblk1 V c 1 t j = V c main_arg1 (tileIdx (Fin.cast N_1 t) j)
  unfold iblk1
  rw [View.read_apply]
  show V c main_arg1 _ = V c main_arg1 _
  congr 1
  funext a
  apply Fin.ext
  match a with
  | ⟨0, _⟩ => show win1_1.index t 0 * 20000 + 1 * (j 0).val = 20000 * t.val + (j 0).val; rw [(idx1_1 t).1]; omega
  | ⟨1, _⟩ => show win1_1.index t 1 * 16 + 1 * (j 1).val = (j 1).val; rw [(idx1_1 t).2]; omega
theorem wb_eq (c : Dev nD) (t : Fin cfg1.N) : wb V c t = tile (V c main_arg2) (Fin.cast N_1 t) := by
  funext j
  show iblk1 V c 2 t j = V c main_arg2 (tileIdx (Fin.cast N_1 t) j)
  unfold iblk1
  rw [View.read_apply]
  show V c main_arg2 _ = V c main_arg2 _
  congr 1
  funext a
  apply Fin.ext
  match a with
  | ⟨0, _⟩ => show win1_2.index t 0 * 20000 + 1 * (j 0).val = 20000 * t.val + (j 0).val; rw [(idx1_2 t).1]; omega
  | ⟨1, _⟩ => show win1_2.index t 1 * 16 + 1 * (j 1).val = (j 1).val; rw [(idx1_2 t).2]; omega
theorem ab_eq (c : Dev nD) (t : Fin cfg1.N) : ab V c t = V c main_v25 := by
  funext j
  show iblk1 V c 3 t j = V c main_v25 j
  unfold iblk1
  rw [View.read_apply]
  show V c main_v25 _ = V c main_v25 j
  congr 1
  funext a
  apply Fin.ext
  match a with
  | ⟨0, _⟩ => show win1_3.index t 0 * 1 + 1 * (j 0).val = (j 0).val; rw [(idx1_3 t).1]; omega
  | ⟨1, _⟩ => show win1_3.index t 1 * 128 + 1 * (j 1).val = (j 1).val; rw [(idx1_3 t).2]; omega

/-- Tile t's weighted sum under the row a, as a function of the natural number t (0 past the last tile). -/
def part (a : Fin 128 → EReal) (X Y W : SA.Idx → EReal) (t : ℕ) : EReal :=
  if ht : t < 100 then bceOn a (tile X ⟨t, ht⟩) (tile Y ⟨t, ht⟩) (tile W ⟨t, ht⟩) else 0

/-- Lane 0 of the running row after point n is the sum of the weighted sums of tiles 0 … n: the zero row contributes 0,
    and each point adds its own tile's sum, under the same row of bin weights. -/
theorem rows_apply (c : Dev nD) : ∀ (n : ℕ) (h : n < cfg1.N),
    rows V c n h (ix2 0 0)
      = ∑ t ∈ Finset.range (n + 1), part (fun l => V c main_v25 (ix2 0 l)) (V c main_arg0) (V c main_arg1) (V c main_arg2) t := by
  intro n
  induction n with
  | zero =>
    intro h
    show bceRow (xb V c ⟨0, h⟩) (yb V c ⟨0, h⟩) (wb V c ⟨0, h⟩) (ab V c ⟨0, h⟩) (k1_pay2 (F := Ideal)) (ix2 0 0) = _
    rw [bceRow_apply, zeroRow_apply, zero_add, Finset.sum_range_one, xb_eq, yb_eq, wb_eq, ab_eq]
    unfold part
    rw [dif_pos (by decide)]
    rfl
  | succ n ih =>
    intro h
    have hlt : n + 1 < 100 := lt_of_lt_of_eq h N_1
    show bceRow (xb V c ⟨n + 1, h⟩) (yb V c ⟨n + 1, h⟩) (wb V c ⟨n + 1, h⟩) (ab V c ⟨n + 1, h⟩) (rows V c n (Nat.lt_of_succ_lt h)) (ix2 0 0) = _
    rw [bceRow_apply, ih, Finset.sum_range_succ _ (n + 1), xb_eq, yb_eq, wb_eq, ab_eq]
    refine congrArg (fun z => _ + z) ?_
    unfold part
    rw [dif_pos hlt]
    rfl

/-- THE SECOND PASS'S RESULT: lane 0 of the result array is the weighted sum over the whole arrays as the region finds
    them, under the row of bin weights as the region finds it. -/
theorem bce_final (c : Dev nD) :
    (dat1 V c).arrAt 4 cfg1.N (ix2 0 0) = bceOn (fun l => V c main_v25 (ix2 0 l)) (V c main_arg0) (V c main_arg1) (V c main_arg2) := by
  refine (congrFun (final1 V c) (ix2 0 0)).trans ?_
  refine (rows_apply V c 99 lt99).trans ?_
  show ∑ t ∈ Finset.range 100, part (fun l => V c main_v25 (ix2 0 l)) (V c main_arg0) (V c main_arg1) (V c main_arg2) t = _
  rw [Finset.sum_range, ← sum_bceOn_tile]
  refine Finset.sum_congr rfl fun t _ => ?_
  unfold part
  rw [dif_pos t.isLt]

end Cert.KernelIdeal.Bce

end
-- ==== Proof.Mid.lean ====
/-
  Between the two passes: the host turns the histogram row into the row the second pass reads.

  From the first pass's [1, 128] result H the host takes the ten counts H[0..9] and the valid samples H[10], and makes
  tot = max H[10] 1, the ten bin weights (tot / max count 1 where the count is positive, else 0), the number n of
  positive counts and 1 / max n 1, and writes the weights into lanes 0..9 and the reciprocal into lane 10 of a zero
  [1, 128] row (two scatters that set, at fixed places that do not collide).
-/
import proofs.«168187_j51591147159894_1_alg».proof.Proof.Spec
import proofs.«168187_j51591147159894_1_alg».proof.Proof.SpecLemmas
import proofs.«168187_j51591147159894_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.Mid

open Cert.KernelIdeal Cert.KernelIdeal.Gen Cert.GhmSpec

section Value
variable (m : (ℓ : Loc nD τ sig) → Buf (Elt Ideal) ℓ) (ρ : Dev nD → PrngReg)

/-- The first pass's result row, lane by lane, as region 0 leaves it. -/
def H (c : Dev nD) (l : Fin 128) : EReal := W1 m ρ c (Proc.devRef .tc main_v0) (ix2 0 l)

/-! ## The row's cuts: the ten counts and the valid samples -/

/-- The ten counts, as the host cuts them out of the row: lanes 0..9 as a vector of ten. -/
def cntV (c : Dev nD) : S10.Idx → EReal :=
  shapeCast S10 (extractStridedSlice S1x10 ![0, 0] (W1 m ρ c (Proc.devRef .tc main_v0)) slices_S1x128_S1x10_0_0) shapeCasts_S1x10_S10
/-- The valid samples, as the host cuts them out of the row: lane 10 as a scalar. -/
def totV (c : Dev nD) : S_.Idx → EReal :=
  shapeCast S_ (extractStridedSlice S1x1 ![0, 10] (W1 m ρ c (Proc.devRef .tc main_v0)) slices_S1x128_S1x1_0_10) shapeCasts_S1x1_S_

/-- Count k is lane k of the row. -/
theorem cntV_apply (c : Dev nD) (k : Fin 10) : cntV m ρ c (ix1 k) = H m ρ c (Fin.castLE (by decide) k) := by
  unfold cntV H
  refine (shapeCast_1a_a_apply _ _ k).trans ?_
  exact slice2_axis1_apply 0 _ slices_S1x128_S1x10_0_0 (0 : Fin 1) k (Fin.castLE (by decide) k) (by show k.val = 0 + k.val; omega)

/-- The valid samples are lane 10 of the row. -/
theorem totV_apply (c : Dev nD) (i : S_.Idx) : totV m ρ c i = H m ρ c 10 := by
  unfold totV H
  refine (shapeCast_apply _ _ i (ix2 (0 : Fin 1) (0 : Fin 1)) ?_).trans ?_
  · exact (Nat.lt_one_iff.mp (show _ < 1 from (Shape.rowMajor _ _).isLt)).trans
      (Nat.lt_one_iff.mp (show _ < 1 from (Shape.rowMajor _ _).isLt)).symm
  · exact slice2_axis1_apply 10 _ slices_S1x128_S1x1_0_10 (0 : Fin 1) (0 : Fin 1) (10 : Fin 128) (by decide)

/-! ## The first stretch: tot, the non-empty bits, their number, the quotients -/

/-- tot = max (valid samples) 1, after the first stretch. -/
theorem W2_v5 (c : Dev nD) (i) : W2 m ρ c (Proc.devRef .tc main_v5) i = totOf (H m ρ c 10) := by
  show StableHlo.after hostOps1 _ (Proc.devRef .tc main_v5) i = _
  after_results
  show FloatOps.maximumf (F := Ideal) (φ := .f32) (totV m ρ c i) c1 = _
  rw [totV_apply]; rfl

/-- Bin k's non-empty bit: count k > 0. -/
theorem W2_v7 (c : Dev nD) (k : Fin 10) :
    W2 m ρ c (Proc.devRef .tc main_v7) (ix1 k) = FloatOps.cmpf (F := Ideal) (φ := .f32) .ogt (H m ρ c (Fin.castLE (by decide) k)) c0 := by
  show StableHlo.after hostOps1 _ (Proc.devRef .tc main_v7) (ix1 k) = _
  after_results
  show FloatOps.cmpf (F := Ideal) (φ := .f32) .ogt (cntV m ρ c (ix1 k)) c0 = _
  rw [cntV_apply]

/-- Bin k's quotient: tot / max (count k) 1. -/
theorem W2_v13 (c : Dev nD) (k : Fin 10) :
    W2 m ρ c (Proc.devRef .tc main_v13) (ix1 k)
      = FloatOps.hostDivf (F := Ideal) (φ := .f32) (totOf (H m ρ c 10)) (FloatOps.maximumf (F := Ideal) (φ := .f32) (H m ρ c (Fin.castLE (by decide) k)) c1) := by
  show StableHlo.after hostOps1 _ (Proc.devRef .tc main_v13) (ix1 k) = _
  after_results
  show FloatOps.hostDivf (F := Ideal) (φ := .f32) (FloatOps.maximumf (F := Ideal) (φ := .f32) (totV m ρ c ix0) c1)
    (FloatOps.maximumf (F := Ideal) (φ := .f32) (cntV m ρ c (ix1 k)) c1) = _
  rw [cntV_apply, totV_apply]; rfl

/-- The literal 0 an empty bin's weight falls back to. -/
theorem W2_cst_3 (c : Dev nD) (i) : W2 m ρ c (Proc.devRef .tc main_cst_3) i = c0 := by
  show StableHlo.after hostOps1 _ (Proc.devRef .tc main_cst_3) i = _
  after_results
  rfl

/-- A vector of ten is indexed by its one coordinate. -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) : ∑ i, f i = ∑ a : Fin n, f (ix1 a) := by
  rw [← Equiv.sum_comp (idxEquiv1 (n := n)).symm f]
  rfl

/-- n: the number of non-empty bins, a sum of the ten bits from the literal 0. -/
theorem W2_v9 (c : Dev nD) (i) : W2 m ρ c (Proc.devRef .tc main_v9) i = nOf (H m ρ c) := by
  show StableHlo.after hostOps1 _ (Proc.devRef .tc main_v9) i = _
  after_results
  show Ideal.hostReduceAdd reducesTo_S10_S_d0
      (fun j : S10.Idx => FloatOps.uitofp (F := Ideal) .f32 (FloatOps.cmpf (F := Ideal) (φ := .f32) .ogt (cntV m ρ c j) c0)) c0 i = _
  rw [Ideal.hostReduceAdd_total _ (fun b => b.elim0), sum_idx1]
  unfold nOf
  simp only [cntV_apply]

/-! ## The second stretch: the ten weights -/

section Stretch
variable (V : Valuation τ sig (Elt Ideal))

/-- The second stretch selects, bin by bin, the quotient or the literal; it leaves n and tot as they were. -/
theorem after11_v14 : StableHlo.after (hostOps1_1 (F := Ideal)) V (Proc.devRef .tc main_v14)
    = select (V (Proc.devRef .tc main_v7)) (V (Proc.devRef .tc main_v13)) (broadcastInDim S10 ![] bcast_S_S10 (V (Proc.devRef .tc main_cst_3))) := by
  after_results
  rfl
theorem after11_v9 : StableHlo.after (hostOps1_1 (F := Ideal)) V (Proc.devRef .tc main_v9) = V (Proc.devRef .tc main_v9) := by
  after_results
theorem after11_v5 : StableHlo.after (hostOps1_1 (F := Ideal)) V (Proc.devRef .tc main_v5) = V (Proc.devRef .tc main_v5) := by
  after_results
/-- The third stretch leaves tot as it was. -/
theorem after12_v5 : StableHlo.after (hostOps1_2 (F := Ideal)) V (Proc.devRef .tc main_v5) = V (Proc.devRef .tc main_v5) := by
  after_results

/-- The two scatters' index vectors: [0, 0] and [0, 10]. -/
def idxA : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0
def idxB : IVec S2 32 :=
  concatenate S2 0 [⟨S1, broadcastInDim S1 ![] bcast_S_S1 (constantI S_ 32 0#32)⟩, ⟨S1, broadcastInDim S1 ![] bcast_S_S1 (constantI S_ 32 10#32)⟩] concatenates_S1_S1_S2_d0

/-- The third stretch: the reciprocal 1 / max n 1 set at [0, 10] into the ten weights set from [0, 0] into a zero row. -/
theorem after12_v25 : StableHlo.after (hostOps1_2 (F := Ideal)) V (Proc.devRef .tc main_v25)
    = Host.scatter scatter_S1x128_S2_S__n_01_01_0 (fun _ b => b)
        (Host.scatter scatter_S1x128_S2_S10_0_0_01_0 (fun _ b => b) (broadcastInDim S1x128 ![] bcast_S_S1x128 (constant (F := Ideal) S_ .f32 0x00000000#32)) idxA (V (Proc.devRef .tc main_v14)))
        idxB
        (Host.divf (F := Ideal) (constant (F := Ideal) S_ .f32 0x3F800000#32) (maximumf (F := Ideal) (V (Proc.devRef .tc main_v9)) (constant (F := Ideal) S_ .f32 0x3F800000#32))) := by
  after_results
  rfl

/-- The index vectors' entries. -/
theorem idxA_0 : idxA (ix1 0) = 0#32 := by rfl
theorem idxA_1 : idxA (ix1 1) = 0#32 := by rfl
theorem idxB_0 : idxB (ix1 0) = 0#32 := by rfl
theorem idxB_1 : idxB (ix1 1) = 10#32 := by rfl

end Stretch

/-- Bin k's weight, after the second stretch. -/
theorem W3_v14 (c : Dev nD) (k : Fin 10) :
    W3 m ρ c (Proc.devRef .tc main_v14) (ix1 k) = wOf (H m ρ c (Fin.castLE (by decide) k)) (totOf (H m ρ c 10)) := by
  refine (congrFun (after11_v14 (W2 m ρ c)) (ix1 k)).trans ?_
  show Scalar.select (W2 m ρ c (Proc.devRef .tc main_v7) (ix1 k)) (W2 m ρ c (Proc.devRef .tc main_v13) (ix1 k)) (W2 m ρ c (Proc.devRef .tc main_cst_3) ix0) = _
  rw [W2_v7, W2_v13, W2_cst_3]
  rfl

/-- n, after the second stretch. -/
theorem W3_v9 (c : Dev nD) (i) : W3 m ρ c (Proc.devRef .tc main_v9) i = nOf (H m ρ c) :=
  (congrFun (after11_v9 (W2 m ρ c)) i).trans (W2_v9 m ρ c i)

/-! ## A scatter that sets, read at an index

The scatter folds its updates, in row-major order, over the operand: each update whose landing place is inside the
operand replaces the element there. So the result at i is the update that lands at i when exactly one does, and the
operand's element when none does. -/

section ScatterSet

/-- A left fold keeps what each step keeps, the steps already taken at hand. -/
theorem foldl_inv {ι σ : Type} (step : σ → ι → σ) (P : List ι → σ → Prop)
    (hstep : ∀ pre n r, P pre r → P (pre ++ [n]) (step r n)) :
    ∀ (L pre : List ι) (x : σ), P pre x → P (pre ++ L) (L.foldl step x)
  | [], pre, x, h => by rw [List.append_nil]; exact h
  | a :: L, pre, x, h => by
    have := foldl_inv step P hstep L (pre ++ [a]) (step x a) (hstep pre a x h)
    rw [List.append_assoc, List.singleton_append] at this
    exact this

variable {s si u : Shape} {α : Type} {w : Nat} (d : ScatterDims s si u) (x : s.Idx → α) (idx : IVec si w) (upd : u.Idx → α)

/-- One update of a scatter that sets: the element where it lands is replaced. -/
def setStep (r : s.Idx → α) (n : Fin u.numel) : s.Idx → α :=
  match d.resultIdx? (u.rowMajor.symm n) idx with
  | some k => fun i' => if i' = k then upd (u.rowMajor.symm n) else r i'
  | none => r

/-- The scatter is the fold of that step over the updates in row-major order. -/
theorem scatter_eq_foldl : Host.scatter d (fun _ b => b) x idx upd = (List.finRange u.numel).foldl (setStep d idx upd) x := rfl

/-- At its landing place the step leaves the update … -/
theorem setStep_of_eq (r : s.Idx → α) (n : Fin u.numel) (k : s.Idx) (h : d.resultIdx? (u.rowMajor.symm n) idx = some k) :
    setStep d idx upd r n k = upd (u.rowMajor.symm n) := by
  unfold setStep
  rw [h]
  exact if_pos rfl

/-- … and everywhere else what was there. -/
theorem setStep_of_ne (r : s.Idx → α) (n : Fin u.numel) (i : s.Idx) (h : d.resultIdx? (u.rowMajor.symm n) idx ≠ some i) :
    setStep d idx upd r n i = r i := by
  unfold setStep
  generalize d.resultIdx? (u.rowMajor.symm n) idx = o at h
  cases o with
  | none => rfl
  | some k => exact if_neg (fun e : i = k => h (by rw [e]))

/-- Where no update lands, the operand's element stays. -/
theorem scatter_set_miss (i : s.Idx) (h : ∀ j : u.Idx, d.resultIdx? j idx ≠ some i) :
    Host.scatter d (fun _ b => b) x idx upd i = x i := by
  rw [scatter_eq_foldl]
  exact foldl_inv (setStep d idx upd) (fun _ r => r i = x i)
    (fun pre n r hr => (setStep_of_ne d idx upd r n i (h _)).trans hr) (List.finRange u.numel) [] x rfl

/-- Where exactly one update lands, the result is that update. -/
theorem scatter_set_hit (i : s.Idx) (j₀ : u.Idx) (h₀ : d.resultIdx? j₀ idx = some i)
    (huniq : ∀ j : u.Idx, d.resultIdx? j idx = some i → j = j₀) :
    Host.scatter d (fun _ b => b) x idx upd i = upd j₀ := by
  rw [scatter_eq_foldl]
  have hstep : ∀ (pre : List (Fin u.numel)) (n : Fin u.numel) (r : s.Idx → α),
      (r i = if u.rowMajor j₀ ∈ pre then upd j₀ else x i) →
      (setStep d idx upd r n i = if u.rowMajor j₀ ∈ pre ++ [n] then upd j₀ else x i) := by
    intro pre n r hr
    by_cases hn : d.resultIdx? (u.rowMajor.symm n) idx = some i
    · have e : u.rowMajor.symm n = j₀ := huniq _ hn
      have en : u.rowMajor j₀ = n := by rw [← e]; exact Equiv.apply_symm_apply _ _
      rw [setStep_of_eq d idx upd r n i hn, e, if_pos (by rw [en]; simp)]
    · have nn : u.rowMajor j₀ ≠ n := by
        intro e; apply hn; rw [← e, Equiv.symm_apply_apply]; exact h₀
      have hm : (u.rowMajor j₀ ∈ pre ++ [n]) ↔ (u.rowMajor j₀ ∈ pre) := by simp [nn]
      rw [setStep_of_ne d idx upd r n i hn, hr]
      simp only [hm]
  have key := foldl_inv (setStep d idx upd) (fun pre r => r i = if u.rowMajor j₀ ∈ pre then upd j₀ else x i)
    hstep (List.finRange u.numel) [] x (by simp)
  simpa using key

/-- An update lands at t when, on every axis, its start plus its window coordinate is t's coordinate. -/
theorem resultIdx_of (j : u.Idx) (t : s.Idx)
    (hs : ∀ a, d.start j idx a + (d.window j a : Int) = ((t a).val : Int)) : d.resultIdx? j idx = some t := by
  unfold ScatterDims.resultIdx?
  split
  · next h =>
    congr 1; funext a; apply Fin.ext
    show (d.start j idx a + (d.window j a : Int)).toNat = (t a).val
    rw [hs a]; exact Int.toNat_natCast _
  · next h =>
    exact absurd (fun a => by rw [hs a]; exact ⟨Int.natCast_nonneg _, Int.ofNat_lt.mpr (t a).isLt⟩) h

end ScatterSet

/-! ## Where the two scatters' updates land -/

/-- Weight k lands at lane k. -/
theorem resultIdx_A (k : Fin 10) :
    scatter_S1x128_S2_S10_0_0_01_0.resultIdx? (ix1 k) idxA = some (ix2 (0 : Fin 1) (Fin.castLE (by decide) k : Fin 128)) := by
  have s0 : scatter_S1x128_S2_S10_0_0_01_0.start (ix1 k) idxA (0 : Fin S1x128.rank) = 0 := by
    unfold ScatterDims.start
    rw [dif_pos (by decide)]
    refine (congrArg (fun v => (idxA v).toInt) (?_ : _ = ix1 0)).trans (by rw [idxA_0]; rfl)
    funext b; match b with | ⟨0, _⟩ => rfl
  have s1 : scatter_S1x128_S2_S10_0_0_01_0.start (ix1 k) idxA (1 : Fin S1x128.rank) = 0 := by
    unfold ScatterDims.start
    rw [dif_pos (by decide)]
    refine (congrArg (fun v => (idxA v).toInt) (?_ : _ = ix1 1)).trans (by rw [idxA_1]; rfl)
    funext b; match b with | ⟨0, _⟩ => rfl
  have w0 : scatter_S1x128_S2_S10_0_0_01_0.window (ix1 k) (0 : Fin S1x128.rank) = 0 := by
    unfold ScatterDims.window
    rw [dif_neg (by decide)]
  have w1 : scatter_S1x128_S2_S10_0_0_01_0.window (ix1 k) (1 : Fin S1x128.rank) = k.val := by
    unfold ScatterDims.window
    rw [dif_pos (by decide)]
    rfl
  have e0 : scatter_S1x128_S2_S10_0_0_01_0.start (ix1 k) idxA (0 : Fin S1x128.rank)
      + ((scatter_S1x128_S2_S10_0_0_01_0.window (ix1 k) (0 : Fin S1x128.rank) : Nat) : Int) = ((0 : Nat) : Int) := by
    rw [s0, w0]; rfl
  have e1 : scatter_S1x128_S2_S10_0_0_01_0.start (ix1 k) idxA (1 : Fin S1x128.rank)
      + ((scatter_S1x128_S2_S10_0_0_01_0.window (ix1 k) (1 : Fin S1x128.rank) : Nat) : Int) = ((k.val : Nat) : Int) := by
    rw [s1, w1, zero_add]
  refine resultIdx_of _ _ _ _ fun a => ?_
  match a with
  | ⟨0, _⟩ => exact e0
  | ⟨1, _⟩ => exact e1

/-- The reciprocal lands at lane 10. -/
theorem resultIdx_B (j : S_.Idx) :
    scatter_S1x128_S2_S__n_01_01_0.resultIdx? j idxB = some (ix2 (0 : Fin 1) (10 : Fin 128)) := by
  have s0 : scatter_S1x128_S2_S__n_01_01_0.start j idxB (0 : Fin S1x128.rank) = 0 := by
    unfold ScatterDims.start
    rw [dif_pos (by decide)]
    refine (congrArg (fun v => (idxB v).toInt) (?_ : _ = ix1 0)).trans (by rw [idxB_0]; rfl)
    funext b; match b with | ⟨0, _⟩ => rfl
  have s1 : scatter_S1x128_S2_S__n_01_01_0.start j idxB (1 : Fin S1x128.rank) = 10 := by
    unfold ScatterDims.start
    rw [dif_pos (by decide)]
    refine (congrArg (fun v => (idxB v).toInt) (?_ : _ = ix1 1)).trans (by rw [idxB_1]; rfl)
    funext b; match b with | ⟨0, _⟩ => rfl
  have w0 : scatter_S1x128_S2_S__n_01_01_0.window j (0 : Fin S1x128.rank) = 0 := by
    unfold ScatterDims.window
    rw [dif_neg (by decide)]
  have w1 : scatter_S1x128_S2_S__n_01_01_0.window j (1 : Fin S1x128.rank) = 0 := by
    unfold ScatterDims.window
    rw [dif_neg (by decide)]
  have e0 : scatter_S1x128_S2_S__n_01_01_0.start j idxB (0 : Fin S1x128.rank)
      + ((scatter_S1x128_S2_S__n_01_01_0.window j (0 : Fin S1x128.rank) : Nat) : Int) = ((0 : Nat) : Int) := by
    rw [s0, w0]; rfl
  have e1 : scatter_S1x128_S2_S__n_01_01_0.start j idxB (1 : Fin S1x128.rank)
      + ((scatter_S1x128_S2_S__n_01_01_0.window j (1 : Fin S1x128.rank) : Nat) : Int) = ((10 : Nat) : Int) := by
    rw [s1, w1]; rfl
  refine resultIdx_of _ _ _ _ fun a => ?_
  match a with
  | ⟨0, _⟩ => exact e0
  | ⟨1, _⟩ => exact e1

/-- tot, as the host leaves it for the last division (and as the second pass's entry contents hold it). -/
theorem W4_tot (c : Dev nD) (i) : W4 m ρ c (Proc.devRef .tc main_v5) i = totOf (H m ρ c 10) :=
  (congrFun (after12_v5 (W3 m ρ c)) i).trans ((congrFun (after11_v5 (W2 m ρ c)) i).trans (W2_v5 m ρ c i))

/-- The row the second pass reads, lane by lane. -/
theorem W4_aux (c : Dev nD) (l : Fin 128) : W4 m ρ c (Proc.devRef .tc main_v25) (ix2 0 l) = auxOf (H m ρ c) l := by
  refine (congrFun (after12_v25 (W3 m ρ c)) (ix2 0 l)).trans ?_
  unfold auxOf
  by_cases h10 : l.val = 10
  · obtain rfl : l = 10 := Fin.ext h10
    rw [if_neg (by decide), if_pos h10,
      scatter_set_hit _ _ _ _ (ix2 (0 : Fin 1) (10 : Fin 128)) ix0 (resultIdx_B ix0) (fun j _ => eq_ix0 j)]
    show FloatOps.hostDivf (F := Ideal) (φ := .f32) c1 (FloatOps.maximumf (F := Ideal) (φ := .f32) (W3 m ρ c (Proc.devRef .tc main_v9) ix0) c1) = _
    rw [W3_v9]; rfl
  · have hB : ∀ j : S_.Idx, scatter_S1x128_S2_S__n_01_01_0.resultIdx? j idxB ≠ some (ix2 (0 : Fin 1) l) := by
      intro j e
      rw [resultIdx_B j] at e
      exact h10 (congrArg (fun t : S1x128.Idx => (t 1).val) (Option.some.inj e)).symm
    rw [scatter_set_miss _ _ _ _ (ix2 (0 : Fin 1) l) hB]
    by_cases hlt : l.val < 10
    · have hl : (Fin.castLE (by decide) (⟨l.val, hlt⟩ : Fin 10) : Fin 128) = l := Fin.ext rfl
      have hA := resultIdx_A ⟨l.val, hlt⟩
      rw [hl] at hA
      rw [if_pos hlt, scatter_set_hit _ _ _ _ (ix2 (0 : Fin 1) l) (ix1 ⟨l.val, hlt⟩) hA ?_]
      · rw [W3_v14, hl]
      · intro j e
        obtain ⟨k, rfl⟩ : ∃ k, j = ix1 k := ⟨j 0, eq_ix1 j⟩
        rw [resultIdx_A k] at e
        have := congrArg (fun t : S1x128.Idx => (t 1).val) (Option.some.inj e)
        exact congrArg ix1 (Fin.ext this)
    · have hA : ∀ j : S10.Idx, scatter_S1x128_S2_S10_0_0_01_0.resultIdx? j idxA ≠ some (ix2 (0 : Fin 1) l) := by
        intro j e
        obtain ⟨k, rfl⟩ : ∃ k, j = ix1 k := ⟨j 0, eq_ix1 j⟩
        rw [resultIdx_A k] at e
        have := congrArg (fun t : S1x128.Idx => (t 1).val) (Option.some.inj e)
        have hk := k.isLt
        exact hlt (by show l.val < 10; rw [← this]; exact hk)
      rw [if_neg hlt, if_neg h10, scatter_set_miss _ _ _ _ (ix2 (0 : Fin 1) l) hA]
      rfl

end Value

end Cert.KernelIdeal.Mid

end
-- ==== Proof.MidArgs.lean ====
/-
  No host operation between the passes and no region writes an argument array: the second pass finds each as launched.
-/
import proofs.«168187_j51591147159894_1_alg».proof.Proof.Gen.KernelIdeal.Frame

noncomputable section

open Idealize.ShloMosaic Idealize.ShloMosaic.TcCoe Idealize.SL.Sem
open Idealize.ShloMosaic.Pipeline (Dat)

namespace Cert.KernelIdeal.Mid

open Cert.KernelIdeal Cert.KernelIdeal.Gen

variable {F : FTy → Type} [FloatOps F]
variable (m : (ℓ : Loc nD τ sig) → Buf (Elt F) ℓ) (ρ : Dev nD → PrngReg)

/-- No operation of a list of host operations writes the buffer in hand: with the list spelled out, each operation
    writes one buffer, and that buffer is another one. -/
local macro "unwritten_by " ops:ident : tactic => `(tactic| (
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The second pass finds each argument array as launched: the three lists of host operations between the passes
    leave it alone, and the first pass only reads it, through an input window. -/
theorem W4_main_arg0 (c : Dev nD) : W4 m ρ c (Proc.devRef .tc main_arg0) = m ((c : Thread nD τ).loc main_arg0) := by
  calc W4 m ρ c (Proc.devRef .tc main_arg0)
    _ = W3 m ρ c (Proc.devRef .tc main_arg0) :=
        StableHlo.after_of_forall_not_mem (b := Proc.devRef .tc main_arg0) _ _ (List.forall_iff_forall_mem.mp (by unwritten_by hostOps1_2))
    _ = W2 m ρ c (Proc.devRef .tc main_arg0) :=
        StableHlo.after_of_forall_not_mem (b := Proc.devRef .tc main_arg0) _ _ (List.forall_iff_forall_mem.mp (by unwritten_by hostOps1_1))
    _ = W1 m ρ c (Proc.devRef .tc main_arg0) :=
        StableHlo.after_of_forall_not_mem (b := Proc.devRef .tc main_arg0) _ _ (List.forall_iff_forall_mem.mp (by unwritten_by hostOps1))
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) := by
  calc W4 m ρ c (Proc.devRef .tc main_arg1)
    _ = W3 m ρ c (Proc.devRef .tc main_arg1) :=
        StableHlo.after_of_forall_not_mem (b := Proc.devRef .tc main_arg1) _ _ (List.forall_iff_forall_mem.mp (by unwritten_by hostOps1_2))
    _ = W2 m ρ c (Proc.devRef .tc main_arg1) :=
        StableHlo.after_of_forall_not_mem (b := Proc.devRef .tc main_arg1) _ _ (List.forall_iff_forall_mem.mp (by unwritten_by hostOps1_1))
    _ = W1 m ρ c (Proc.devRef .tc main_arg1) :=
        StableHlo.after_of_forall_not_mem (b := Proc.devRef .tc main_arg1) _ _ (List.forall_iff_forall_mem.mp (by unwritten_by hostOps1))
    _ = W0 m ρ c (Proc.devRef .tc main_arg1) :=
        (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) := by
  calc W4 m ρ c (Proc.devRef .tc main_arg2)
    _ = W3 m ρ c (Proc.devRef .tc main_arg2) :=
        StableHlo.after_of_forall_not_mem (b := Proc.devRef .tc main_arg2) _ _ (List.forall_iff_forall_mem.mp (by unwritten_by hostOps1_2))
    _ = W2 m ρ c (Proc.devRef .tc main_arg2) :=
        StableHlo.after_of_forall_not_mem (b := Proc.devRef .tc main_arg2) _ _ (List.forall_iff_forall_mem.mp (by unwritten_by hostOps1_1))
    _ = W1 m ρ c (Proc.devRef .tc main_arg2) :=
        StableHlo.after_of_forall_not_mem (b := Proc.devRef .tc main_arg2) _ _ (List.forall_iff_forall_mem.mp (by unwritten_by hostOps1))
    _ = W0 m ρ c (Proc.devRef .tc main_arg2) :=
        (W1_arr m ρ c 2).trans (((dat0 (V0 m ρ) c).arrAt_in 2 rfl _).trans (A_eq0 (V0 m ρ) c 2))
    _ = m ((c : Thread nD τ).loc main_arg2) := rfl

end Cert.KernelIdeal.Mid

end
-- ==== Proof.KernelValue.lean ====
/-
  The kernel program's result is the loss of the specification.

  The run's last boundary holds the result buffer at the host's last two operations (a division by tot, a product with
  the literal 1) of lane 0 of the second pass's result array; that lane is the weighted sum over the arrays under the row
  of bin weights the host made between the passes from the first pass's result array, which is the histogram row of the
  arrays; and every pass finds the argument arrays as launched.
-/
import proofs.«168187_j51591147159894_1_alg».proof.Proof.Spec
import proofs.«168187_j51591147159894_1_alg».proof.Proof.SpecLemmas
import proofs.«168187_j51591147159894_1_alg».proof.Proof.KernelRun
import proofs.«168187_j51591147159894_1_alg».proof.Proof.HistFinal
import proofs.«168187_j51591147159894_1_alg».proof.Proof.BceFinal
import proofs.«168187_j51591147159894_1_alg».proof.Proof.Mid
import proofs.«168187_j51591147159894_1_alg».proof.Proof.MidArgs
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.GhmSpec

variable (m : (ℓ : Loc nD τ sig) → Buf (Elt Ideal) ℓ) (ρ : Dev nD → PrngReg)

/-- The host's [0:1, 0:1] slice of a [1, 128] row, reshaped to rank 0, is the row's entry (0, 0). -/
theorem slice00 (v : S1x128.Idx → EReal) (i : S_.Idx) :
    shapeCast S_ (extractStridedSlice S1x1 ![0, 0] v slices_S1x128_S1x1_0_0) shapeCasts_S1x1_S_ i = v (ix2 0 0) := by
  unfold shapeCast extractStridedSlice
  refine congrArg v (funext fun a => Fin.ext ?_)
  match a with
  | ⟨0, _⟩ => exact (Nat.zero_add _).trans (Nat.lt_one_iff.mp (Fin.isLt _))
  | ⟨1, _⟩ => exact (Nat.zero_add _).trans (Nat.lt_one_iff.mp (Fin.isLt _))

/-- The result buffer at the run's last boundary is the loss of the launch contents of the three arguments: the
    host's last operations divide lane 0 of the second pass's result array by tot and multiply by the literal 1; that
    lane is the weighted sum under the row made from the first pass's result array, the histogram row of the arguments. -/
theorem W6_result (c : Dev nD) (i) :
    W6 m ρ c (Proc.devRef .tc main_v30) i
      = loss (m ((c : Thread nD τ).loc main_arg0)) (m ((c : Thread nD τ).loc main_arg1)) (m ((c : Thread nD τ).loc main_arg2)) := by
  have e0 : @Eq (FVec Ideal S_ .f32) (W6 m ρ c (Proc.devRef .tc main_v30))
      (mulf (F := Ideal) (Host.divf (F := Ideal) (fun i => shapeCast S_ (extractStridedSlice S1x1 ![0, 0] (W5 m ρ c (Proc.devRef .tc main_v26) : FVec Ideal S1x128 .f32) slices_S1x128_S1x1_0_0) shapeCasts_S1x1_S_ i)
          (W5 m ρ c (Proc.devRef .tc main_v5) : FVec Ideal S_ .f32)) (constant (F := Ideal) S_ .f32 0x3F800000#32)) := by
    show StableHlo.after hostOps2 _ (Proc.devRef .tc main_v30) = _
    after_results
    rfl
  have e26 : W5 m ρ c (Proc.devRef .tc main_v26) = (dat1 (V4 m ρ) c).arrAt 4 cfg1.N := W5_arr m ρ c 4
  have e5 : W5 m ρ c (Proc.devRef .tc main_v5) = W4 m ρ c (Proc.devRef .tc main_v5) :=
    W5_of_ne m ρ c main_v5 (by decide)
  have hH : ∀ l, Mid.H m ρ c l = histOn (m ((c : Thread nD τ).loc main_arg0)) (m ((c : Thread nD τ).loc main_arg1)) (m ((c : Thread nD τ).loc main_arg2)) l := fun l => by
    unfold Mid.H
    rw [show W1 m ρ c (Proc.devRef .tc main_v0) = (dat0 (V0 m ρ) c).arrAt 3 cfg0.N from W1_arr m ρ c 3]
    exact Hist.hist_final (V0 m ρ) c l
  have ha : (fun l => V4 m ρ c main_v25 (ix2 0 l))
      = auxOf (histOn (m ((c : Thread nD τ).loc main_arg0)) (m ((c : Thread nD τ).loc main_arg1)) (m ((c : Thread nD τ).loc main_arg2))) := funext fun l => by
    show W4 m ρ c (Proc.devRef .tc main_v25) (ix2 0 l) = _
    rw [Mid.W4_aux, show Mid.H m ρ c = _ from funext hH]
  have hx : V4 m ρ c main_arg0 = m ((c : Thread nD τ).loc main_arg0) := Mid.W4_main_arg0 m ρ c
  have hy : V4 m ρ c main_arg1 = m ((c : Thread nD τ).loc main_arg1) := Mid.W4_main_arg1 m ρ c
  have hw : V4 m ρ c main_arg2 = m ((c : Thread nD τ).loc main_arg2) := Mid.W4_main_arg2 m ρ c
  refine (congrFun e0 i).trans ?_
  show FloatOps.mulf (F := Ideal) (φ := .f32) (FloatOps.hostDivf (F := Ideal) (φ := .f32) (shapeCast S_ (extractStridedSlice S1x1 ![0, 0] (W5 m ρ c (Proc.devRef .tc main_v26) : FVec Ideal S1x128 .f32) slices_S1x128_S1x1_0_0) shapeCasts_S1x1_S_ i)
    ((W5 m ρ c (Proc.devRef .tc main_v5) : FVec Ideal S_ .f32) i)) c1 = _
  rw [slice00, e26, e5, Mid.W4_tot m ρ c i, Bce.bce_final (V4 m ρ) c, ha, hx, hy, hw, hH 10]
  rfl

/-- The run, read: the result at the loss, the arguments unchanged. -/
theorem run : θ_run defs (onTc (τ := τ) (main (F := Ideal))) ⟨m, fun _ => 0, ρ⟩ (fun r => ∀ c : Dev nD,
      r.2.mem ((c.tc : Thread nD τ).loc main_v30)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun i => W6_result m ρ c i), (h c).2⟩)
    (Cert.KernelIdeal.GenRun.run_main m ρ)

end Cert.KernelIdeal.KernelValue

end
-- ==== Proof.RefScatter.lean ====
/-
  The reference's segment sum read at a bin: a scatter that adds, at the ideal instance, is at each of the ten bins the
  literal 0 plus the sum of the updates whose index is that bin (an update whose index is no bin is dropped) — here the
  valid-sample indicators of all 32000000 flattened samples, indexed by their bins, which are always one of 0..9.
-/
import proofs.«168187_j51591147159894_1_alg».proof.Proof.Spec
import proofs.«168187_j51591147159894_1_alg».proof.Proof.SpecLemmas
import proofs.«168187_j51591147159894_1_alg».proof.Proof.RefRead
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.ReferenceIdeal.RefScatter

open Cert.ReferenceIdeal Cert.ReferenceIdeal.Gen Cert.ReferenceIdeal.ReadP Cert.GhmSpec

/-- The valid-sample indicator of the reference is the one of the specification, and its bin the specification's. -/
theorem valid_apply (w : (⟨S2000000x16, .f32⟩ : BufTy).Contents (Elt Ideal)) (e : S2000000x16.Idx) :
    val_main_v9 (F := Ideal) w e = validOf (w e) := by
  rw [val_main_v9_apply, val_main_v8_apply, val_main_cst_1_apply]
  rfl
theorem bin_apply (x y : (⟨S2000000x16, .f32⟩ : BufTy).Contents (Elt Ideal)) (e : S2000000x16.Idx) :
    val_main_v17 (F := Ideal) x y e = binOf (x e) (y e) := by
  rw [val_main_v17_apply, val_main_call0_v4_apply, val_main_call0_v3_apply, val_main_c_5_apply,
    val_main_call0_v2_apply, val_main_call0_v1_apply, val_main_call0_v0_apply, val_main_c_apply,
    val_main_v16_apply, val_main_v15_apply, val_main_v14_apply, val_main_v13_apply, val_main_cst_4_apply,
    val_main_v7_apply, val_main_v6_apply, val_main_v5_apply, val_main_v4_apply, val_main_cst_0_apply,
    val_main_v3_apply, val_main_v2_apply, val_main_cst_apply, val_main_v1_apply, val_main_v0_apply]
  have h1 : FloatOps.ofBits (F := Ideal) .f32 0x3F800000#32 = 1 := c1_eq
  rw [h1]
  rfl

/-! ## Where an update lands

The scatter's dimension numbers have no window axis, insert the operand's one axis and map the one index component to
it: update `j` reads the word in row `j`, column 0 of the indices and lands at that word, read signed, when it is one of
`0..9`. -/

/-- Row `j`, the one column: where update `j` reads its index word. -/
abbrev rowIdx (j : S32000000.Idx) : S32000000x1.Idx := ix2 (⟨(j 0).val, (j 0).isLt⟩ : Fin 32000000) (0 : Fin 1)

/-- The start on the operand's axis is the index word of the update's row, read signed. -/
theorem start_eq {w : Nat} (idx : IVec S32000000x1 w) (j : S32000000.Idx) (a : Fin S10.rank) :
    scatter_S10_S32000000x1_S32000000_n_0_0_1.start j idx a = (idx (rowIdx j)).toInt := by
  obtain rfl : a = 0 := Subsingleton.elim _ _
  unfold ScatterDims.start
  rw [dif_pos (show (0 : Fin 1) ∈ scatter_S10_S32000000x1_S32000000_n_0_0_1.scatterDimsToOperandDims from List.mem_singleton.mpr rfl)]
  have hsi : scatter_S10_S32000000x1_S32000000_n_0_0_1.siIdx j ⟨List.idxOf (0 : Fin 1) scatter_S10_S32000000x1_S32000000_n_0_0_1.scatterDimsToOperandDims,
      List.idxOf_lt_length_iff.2 (List.mem_singleton.mpr rfl)⟩ = rowIdx j := by
    funext c; refine Fin.ext ?_
    match c with
    | ⟨0, _⟩ => rfl
    | ⟨1, _⟩ => rfl
  rw [hsi]

/-- There is no window axis: the window coordinate is 0. -/
theorem window_eq (j : S32000000.Idx) (a : Fin S10.rank) :
    scatter_S10_S32000000x1_S32000000_n_0_0_1.window j a = 0 := by
  obtain rfl : a = 0 := Subsingleton.elim _ _
  unfold ScatterDims.window
  rw [dif_neg (by decide)]

/-- Update `j` lands at bin `b` exactly when its index word, read signed, is `b`. -/
theorem resultIdx_some_iff {w : Nat} (idx : IVec S32000000x1 w) (j : S32000000.Idx) (b : Fin 10) :
    scatter_S10_S32000000x1_S32000000_n_0_0_1.resultIdx? j idx = some (ix1 b) ↔ (idx (rowIdx j)).toInt = (b.val : Int) := by
  have hs : ∀ a, scatter_S10_S32000000x1_S32000000_n_0_0_1.start j idx a
      + (scatter_S10_S32000000x1_S32000000_n_0_0_1.window j a : Int) = (idx (rowIdx j)).toInt := fun a => by
    rw [start_eq, window_eq]; simp
  have hb := b.isLt
  unfold ScatterDims.resultIdx?
  split
  · rename_i h
    constructor
    · intro he
      have h1 := congrArg Fin.val (congrFun (Option.some.inj he) 0)
      have h0 := (h 0).1
      rw [hs] at h0
      have h2 : ((idx (rowIdx j)).toInt).toNat = b.val := by rw [← hs 0]; exact h1
      omega
    · intro he
      refine congrArg some ?_
      funext a
      obtain rfl : a = 0 := Subsingleton.elim _ _
      refine Fin.ext ?_
      show (scatter_S10_S32000000x1_S32000000_n_0_0_1.start j idx 0
        + (scatter_S10_S32000000x1_S32000000_n_0_0_1.window j 0 : Int)).toNat = b.val
      rw [hs, he]; simp
  · rename_i h
    constructor
    · intro he; cases he
    · intro he
      refine absurd (fun a => ?_) h
      obtain rfl : a = 0 := Subsingleton.elim _ _
      rw [hs, he]
      refine ⟨by omega, ?_⟩
      show (b.val : Int) < ((10 : Nat) : Int)
      omega

/-- A 32-bit word below 10 read signed is bin `b` exactly when it is the word `b`. -/
theorem toInt_eq_iff (v : BitVec 32) (hv : v.toNat < 10) (b : Fin 10) :
    v.toInt = (b.val : Int) ↔ v = BitVec.ofNat 32 b.val := by
  have hb := b.isLt
  have ht : v.toInt = (v.toNat : Int) := by
    rw [BitVec.toInt_eq_toNat_cond, if_pos (by omega)]
  rw [ht]
  constructor
  · intro h
    apply BitVec.eq_of_toNat_eq
    rw [BitVec.toNat_ofNat]
    omega
  · intro h
    rw [h, BitVec.toNat_ofNat]
    omega

/-! ## The reshape's index bijection -/

/-- Flat sample `j` is row `j / 16`, lane `j % 16`: a bijection from the 32000000 flat samples onto the array's indices. -/
def flatEquiv : S32000000.Idx ≃ S2000000x16.Idx where
  toFun := idx_main_v19
  invFun e := ix1 (⟨(e 0).val * 16 + (e 1).val, by
    have h0 : (e 0).val < 2000000 := idx2_lt0 e
    have h1 : (e 1).val < 16 := idx2_lt1 e
    omega⟩ : Fin 32000000)
  left_inv j := by
    funext a
    match a with
    | ⟨0, _⟩ => exact Fin.ext (by show (j 0).val / 16 * 16 + (j 0).val % 16 = (j 0).val; omega)
  right_inv e := by
    have h1 : (e 1).val < 16 := idx2_lt1 e
    funext a
    match a with
    | ⟨0, _⟩ => exact Fin.ext (by show ((e 0).val * 16 + (e 1).val) / 16 = (e 0).val; omega)
    | ⟨1, _⟩ => exact Fin.ext (by show ((e 0).val * 16 + (e 1).val) % 16 = (e 1).val; omega)

/-! ## The segment sum -/

/-- The index word of flat sample `j` is the bin of the sample it unflattens to, -/
theorem word_apply (x y : (⟨S2000000x16, .f32⟩ : BufTy).Contents (Elt Ideal)) (j : S32000000.Idx) :
    val_main_v22 (F := Ideal) x y (rowIdx j) = binOf (x (idx_main_v19 j)) (y (idx_main_v19 j)) := by
  rw [val_main_v22_apply, val_main_v20_apply, bin_apply]

/-- and its update that sample's valid indicator as a number. -/
theorem upd_apply (w : (⟨S2000000x16, .f32⟩ : BufTy).Contents (Elt Ideal)) (j : S32000000.Idx) :
    val_main_v19 (F := Ideal) w j = vfOf (w (idx_main_v19 j)) := by
  rw [val_main_v19_apply, val_main_v18_apply, valid_apply, vfOf]

/-- The scatter at an operand index, at the ideal instance: the operand's element plus the sum of the updates landing there. -/
theorem scatterAdd_apply (X : (⟨S10, .f32⟩ : BufTy).Contents (Elt Ideal)) (idx : (⟨S32000000x1, .i32⟩ : BufTy).Contents (Elt Ideal))
    (upd : (⟨S32000000, .f32⟩ : BufTy).Contents (Elt Ideal)) (i : S10.Idx) :
    Host.scatterAdd (F := Ideal) (φ := .f32) scatter_S10_S32000000x1_S32000000_n_0_0_1 X idx upd i
      = Ideal.hostScatterAdd scatter_S10_S32000000x1_S32000000_n_0_0_1 X idx upd i := rfl

/-- With index words all below 10, the scatter at bin `b` is the operand's element plus the updates whose word is `b`. -/
theorem scatterAdd_bin (X : (⟨S10, .f32⟩ : BufTy).Contents (Elt Ideal)) (idx : (⟨S32000000x1, .i32⟩ : BufTy).Contents (Elt Ideal))
    (upd : (⟨S32000000, .f32⟩ : BufTy).Contents (Elt Ideal)) (b : Fin 10) (hidx : ∀ j, (idx (rowIdx j)).toNat < 10) :
    Host.scatterAdd (F := Ideal) (φ := .f32) scatter_S10_S32000000x1_S32000000_n_0_0_1 X idx upd (ix1 b)
      = X (ix1 b) + ∑ j : S32000000.Idx, if idx (rowIdx j) = BitVec.ofNat 32 b.val then upd j else 0 := by
  rw [scatterAdd_apply]
  unfold Ideal.hostScatterAdd
  rw [Finset.sum_filter]
  refine congrArg (X (ix1 b) + ·) (Finset.sum_congr rfl fun j _ => ?_)
  by_cases hc : idx (rowIdx j) = BitVec.ofNat 32 b.val
  · rw [if_pos hc, if_pos ((resultIdx_some_iff idx j b).2 ((toInt_eq_iff _ (hidx j) b).2 hc))]
  · rw [if_neg hc, if_neg (fun h => hc ((toInt_eq_iff _ (hidx j) b).1 ((resultIdx_some_iff idx j b).1 h)))]

/-- THE SEGMENT SUM at bin b: the literal 0 plus the number of valid samples of bin b. -/
theorem counts_apply (x y w : (⟨S2000000x16, .f32⟩ : BufTy).Contents (Elt Ideal)) (b : Fin 10) :
    val_main_v23 (F := Ideal) x y w (ix1 b) = c0 + cntOn x y w (BitVec.ofNat 32 b.val) := by
  refine (scatterAdd_bin (val_main_v21 (F := Ideal)) (val_main_v22 (F := Ideal) x y) (val_main_v19 (F := Ideal) w) b
    (fun j => by rw [word_apply]; exact binOf_lt _ _)).trans ?_
  have hX : val_main_v21 (F := Ideal) (ix1 b) = c0 := by rw [val_main_v21_apply, val_main_cst_6_apply]
  have hsum : (∑ j : S32000000.Idx, if val_main_v22 (F := Ideal) x y (rowIdx j) = BitVec.ofNat 32 b.val
      then val_main_v19 (F := Ideal) w j else 0) = cntOn x y w (BitVec.ofNat 32 b.val) := by
    unfold cntOn
    refine Eq.trans (Finset.sum_congr rfl fun j _ => ?_)
      (Equiv.sum_comp flatEquiv fun e => if binOf (x e) (y e) = BitVec.ofNat 32 b.val then vfOf (w e) else 0)
    rw [word_apply, upd_apply]
    rfl
  exact congrArg₂ (· + ·) hX hsum

end Cert.ReferenceIdeal.RefScatter

end
-- ==== Proof.RefValue.lean ====
/-
  The reference's result is the loss of the specification.

  Its operations read one at a time: tot from a sum over all samples; the ten counts from the segment sum; the ten bin
  weights and the number of non-empty bins exactly as the kernel's host code makes them; each sample's weight a gather of
  its bin's weight (the bin is one of 0..9, so the clamp and the negative-index wrap of the gather do nothing, and the
  gather is the chain of ten selects), divided by max n 1 where the kernel multiplies by 1 / max n 1: the same extended
  real, since max n 1 is not 0; the sum of weight * bce from the literal 0; the division by tot and the product with 1.
-/
import proofs.«168187_j51591147159894_1_alg».proof.Proof.Spec
import proofs.«168187_j51591147159894_1_alg».proof.Proof.SpecLemmas
import proofs.«168187_j51591147159894_1_alg».proof.Proof.RefRead
import proofs.«168187_j51591147159894_1_alg».proof.Proof.RefScatter
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP Cert.GhmSpec Cert.ReferenceIdeal.RefScatter

/-- A host sum starts from the literal 0, which adds nothing. -/
theorem c0_add (s : EReal) : c0 + s = s := by rw [c0_eq, zero_add]

/-- A valid sample counts 1, an invalid one 0. -/
theorem vf_apply (w : (⟨S2000000x16, .f32⟩ : BufTy).Contents (Elt Ideal)) (e : S2000000x16.Idx) :
    val_main_v10 (F := Ideal) w e = vfOf (w e) := by
  rw [val_main_v10_apply, valid_apply]; rfl

/-- tot = max (the number of valid samples) 1. -/
theorem tot_apply (w : (⟨S2000000x16, .f32⟩ : BufTy).Contents (Elt Ideal)) (i : S_.Idx) :
    val_main_v12 (F := Ideal) w i = totOf (totOn w) := by
  rw [val_main_v12_apply, val_main_v11_apply]
  show FloatOps.maximumf (F := Ideal) (φ := .f32) (c0 + ∑ j, val_main_v10 (F := Ideal) w j) c1 = _
  rw [c0_add]
  unfold totOf totOn
  exact congrArg (fun s => FloatOps.maximumf (F := Ideal) (φ := .f32) s c1) (Finset.sum_congr rfl fun e _ => vf_apply w e)

/-- The segment sum at bin b is the number of valid samples of bin b. -/
theorem cnt_apply (x y w : (⟨S2000000x16, .f32⟩ : BufTy).Contents (Elt Ideal)) (b : Fin 10) :
    val_main_v23 (F := Ideal) x y w (ix1 b) = cntOn x y w (BitVec.ofNat 32 b.val) := by
  rw [counts_apply, c0_add]

/-- Bin b's weight: tot / max cnt 1 where the bin is non-empty, else 0. -/
theorem weight_apply (x y w : (⟨S2000000x16, .f32⟩ : BufTy).Contents (Elt Ideal)) (b : Fin 10) :
    val_main_v32 (F := Ideal) x y w (ix1 b) = wOf (cntOn x y w (BitVec.ofNat 32 b.val)) (totOf (totOn w)) := by
  rw [val_main_v32_apply, val_main_v25_apply, val_main_v31_apply, val_main_v29_apply, val_main_v30_apply, tot_apply,
    cnt_apply]
  rfl

/-- The histogram row at a lane below 10 is that bin's count, at lane 10 the number of valid samples. -/
theorem hist_lt {ι : Type} [Fintype ι] (x y w : ι → EReal) (l : Fin 128) (h : l.val < 10) :
    histOn x y w l = cntOn x y w (BitVec.ofNat 32 l.val) := by
  unfold histOn; rw [if_pos h]
theorem hist_10 {ι : Type} [Fintype ι] (x y w : ι → EReal) : histOn x y w 10 = totOn w := by
  unfold histOn; rw [if_neg (by decide), if_pos (by decide)]

/-- The row the second pass reads, at a lane below 10 and at lane 10. -/
theorem aux_lt (H : Fin 128 → EReal) (l : Fin 128) (h : l.val < 10) : auxOf H l = wOf (H l) (totOf (H 10)) := by
  unfold auxOf; rw [if_pos h]
theorem aux_10 (H : Fin 128 → EReal) : auxOf H 10 = invnOf (nOf H) := by
  unfold auxOf; rw [if_neg (by decide), if_pos (by decide)]

/-- So bin b's weight is lane b of the row made from the histogram. -/
theorem weight_eq_aux (x y w : (⟨S2000000x16, .f32⟩ : BufTy).Contents (Elt Ideal)) (b : Fin 10) :
    val_main_v32 (F := Ideal) x y w (ix1 b) = auxOf (histOn x y w) (Fin.castLE (by decide) b) := by
  have hb : (Fin.castLE (by decide : 10 ≤ 128) b).val < 10 := b.isLt
  rw [weight_apply, aux_lt _ _ hb, hist_lt _ _ _ _ hb, hist_10]
  rfl

/-- A rank-1 index set is its coordinate's range. -/
def idx1Equiv {n : Nat} : (⟨1, ![n]⟩ : Shape).Idx ≃ Fin n where
  toFun i := i 0
  invFun a := ix1 a
  left_inv i := (eq_ix1 i).symm
  right_inv _ := rfl

/-- n = the number of non-empty bins. -/
theorem n_apply (x y w : (⟨S2000000x16, .f32⟩ : BufTy).Contents (Elt Ideal)) (i : S_.Idx) :
    val_main_v27 (F := Ideal) x y w i = nOf (histOn x y w) := by
  rw [val_main_v27_apply]
  show c0 + ∑ j : S10.Idx, val_main_v26 (F := Ideal) x y w j = _
  unfold nOf
  refine congrArg (fun s => c0 + s) ?_
  refine (Fintype.sum_equiv (idx1Equiv (n := 10)).symm _ _ fun b => ?_).symm
  have hb : (Fin.castLE (by decide : 10 ≤ 128) b).val < 10 := b.isLt
  show _ = val_main_v26 (F := Ideal) x y w (ix1 b)
  rw [val_main_v26_apply, val_main_v25_apply, cnt_apply, hist_lt _ _ _ _ hb]
  rfl

/-- A 32-bit word below 10 is one of the ten literals. -/
theorem bin_cases (b : BitVec 32) (h : b.toNat < 10) : ∃ n : Fin 10, b = BitVec.ofNat 32 n.val := by
  refine ⟨⟨b.toNat, h⟩, BitVec.eq_of_toNat_eq ?_⟩
  rw [BitVec.toNat_ofNat, Nat.mod_eq_of_lt (by omega)]

/-- The chain of ten selects reads the row at the bin's lane. -/
theorem auxSel_eq (a : Fin 128 → EReal) (b : BitVec 32) (h : b.toNat < 10) :
    auxSel a b = a ⟨b.toNat, by omega⟩ := by
  obtain ⟨n, rfl⟩ := bin_cases b h
  fin_cases n <;> rfl

/-- A bin is not negative, so the wrap of a negative index leaves it, -/
theorem wrap_eq (b c : BitVec 32) (h : b.toNat < 10) : Scalar.select (IntOp.cmpi .slt b 0#32) c b = b := by
  obtain ⟨n, rfl⟩ := bin_cases b h
  fin_cases n <;> rfl

/-- and read signed and clamped into 0..9 it is itself. -/
theorem clamp_eq (b : BitVec 32) (h : b.toNat < 10) : min b.toInt.toNat (10 - 1) = b.toNat := by
  obtain ⟨n, rfl⟩ := bin_cases b h
  fin_cases n <;> decide

/-- THE GATHER: each sample reads its bin's weight. -/
theorem gather_apply (x y w : (⟨S2000000x16, .f32⟩ : BufTy).Contents (Elt Ideal)) (e : S2000000x16.Idx) :
    val_main_v39 (F := Ideal) x y w e
      = val_main_v32 (F := Ideal) x y w (ix1 ⟨(binOf (x e) (y e)).toNat, binOf_lt _ _⟩) := by
  have hidx : val_main_v38 (F := Ideal) x y (takeIdx e) = binOf (x e) (y e) := by
    have he : idx_main_v38 (takeIdx e) = e := by
      funext a; match a with | ⟨0, _⟩ => rfl | ⟨1, _⟩ => rfl
    rw [val_main_v38_apply, he, val_main_v37_apply, val_main_v34_apply, bin_apply]
    exact wrap_eq _ _ (binOf_lt _ _)
  unfold val_main_v39
  refine (gather_take_apply (N := 10) (R := 2000000) (C := 16) (by decide)
    gather_S10_S2000000x16x1_S2000000x16_n_0_n_n_0_2_1_wf (val_main_v32 (F := Ideal) x y w)
    (val_main_v38 (F := Ideal) x y) e).trans ?_
  refine congrArg (val_main_v32 (F := Ideal) x y w) (congrArg ix1 (Fin.ext ?_))
  show min (val_main_v38 (F := Ideal) x y (takeIdx e)).toInt.toNat (10 - 1) = (binOf (x e) (y e)).toNat
  rw [hidx]
  exact clamp_eq _ (binOf_lt _ _)

/-- So the gathered weight is the chain of ten selects on the row made from the histogram. -/
theorem gather_eq_auxSel (x y w : (⟨S2000000x16, .f32⟩ : BufTy).Contents (Elt Ideal)) (e : S2000000x16.Idx) :
    val_main_v39 (F := Ideal) x y w e = auxSel (auxOf (histOn x y w)) (binOf (x e) (y e)) := by
  rw [gather_apply, weight_eq_aux, auxSel_eq _ _ (binOf_lt _ _)]
  rfl

/-- THE ONE REAL LAW: dividing by a nonzero extended real is multiplying by its reciprocal (an infinite divisor's
    reciprocal is 0 on both sides). -/
theorem div_eq_mul_recip (s d : EReal) (hd : d ≠ 0) : Ideal.div s d = s * Ideal.div c1 d := by
  unfold Ideal.div
  rw [if_neg hd, if_neg hd, c1_eq, one_mul]

/-- max n 1 is at least 1, so not 0. -/
theorem max_c1_ne_zero (n : EReal) : FloatOps.maximumf (F := Ideal) (φ := .f32) n c1 ≠ 0 := by
  have h1 : (1 : EReal) ≤ max n c1 := by rw [c1_eq]; exact le_max_right n 1
  exact (lt_of_lt_of_le zero_lt_one h1).ne'

/-- The stable cross-entropy: the reference negates |x| where the specification subtracts it from 0. -/
theorem bce_apply (x y : (⟨S2000000x16, .f32⟩ : BufTy).Contents (Elt Ideal)) (e : S2000000x16.Idx) :
    val_main_v52 (F := Ideal) x y e = bceOf (x e) (y e) := by
  rw [val_main_v52_apply, val_main_v47_apply, val_main_v45_apply, val_main_v46_apply, val_main_v51_apply,
    val_main_v50_apply, val_main_v49_apply, val_main_v48_apply]
  have hneg : FloatOps.hostNegf (F := Ideal) (φ := .f32) (FloatOps.hostAbsf (F := Ideal) (φ := .f32) (x e))
      = FloatOps.subf (F := Ideal) (φ := .f32) c0 (FloatOps.absf (F := Ideal) (φ := .f32) (x e)) := by
    show -(FloatOps.absf (F := Ideal) (φ := .f32) (x e)) = c0 - FloatOps.absf (F := Ideal) (φ := .f32) (x e)
    rw [c0_eq, zero_sub]
  rw [hneg]
  rfl

/-- One sample's term: the reference divides the selected weight by max n 1, the specification multiplies it by
    1 / max n 1. -/
theorem term_apply (x y w : (⟨S2000000x16, .f32⟩ : BufTy).Contents (Elt Ideal)) (e : S2000000x16.Idx) :
    val_main_v53 (F := Ideal) x y w e = termOf (auxOf (histOn x y w)) (x e) (y e) (w e) := by
  rw [val_main_v53_apply, val_main_v43_apply, val_main_v40_apply, val_main_v42_apply, val_main_v41_apply, n_apply,
    valid_apply, gather_eq_auxSel, bce_apply, val_main_call2_v1_apply]
  unfold termOf
  rw [aux_10]
  unfold invnOf
  refine congrArg (fun t => FloatOps.mulf (F := Ideal) (φ := .f32) t (bceOf (x e) (y e))) ?_
  exact div_eq_mul_recip _ _ (max_c1_ne_zero _)

/-- THE REFERENCE'S RESULT, as a function of the three argument arrays, is the loss. -/
theorem ref_eq (x y w : (⟨S2000000x16, .f32⟩ : BufTy).Contents (Elt Ideal)) (i : S_.Idx) :
    val_main_v56 (F := Ideal) x y w i = loss x y w := by
  rw [val_main_v56_apply, val_main_v55_apply, val_main_v54_apply, tot_apply]
  show FloatOps.mulf (F := Ideal) (φ := .f32) (FloatOps.hostDivf (F := Ideal) (φ := .f32)
    (c0 + ∑ j, val_main_v53 (F := Ideal) x y w j) (totOf (totOn w))) c1 = _
  rw [c0_add, Finset.sum_congr rfl fun e _ => term_apply x y w e]
  unfold loss bceOn
  rw [hist_10]

end Cert.ReferenceIdeal.RefValue

end
-- ==== Proof.lean ====
/-
  The GHM-C loss: a two-pass Pallas kernel against its jnp reference, equal over the extended reals.

  The kernel's first pass builds, tile by tile, the ten-bin histogram of the valid samples' |sigmoid x - y| and their
  number; the host turns the ten counts into ten bin weights and the reciprocal of the number of non-empty bins; the
  second pass sums, tile by tile, each valid sample's bin weight times that reciprocal times its cross-entropy, and the
  host divides by the number of valid samples (at least 1). The reference computes the same with a segment sum for the
  counts, a gather for each sample's weight, a division by max n 1 where the kernel multiplies by its reciprocal, and one
  sum over all samples. At the ideal instance both are the one function `Cert.GhmSpec.loss` of the three arrays
  (Proof/Spec.lean): sums over the extended reals regroup freely, and x * (1 / d) is x / d for d = max n 1, which is not 0.
  The precondition is never opened: the two sides agree at every extended-real input.

  frame_Kernel, frame_KernelIdeal: the generated frames. frame_ReferenceIdeal: the reference's run with the result
  dropped. preserves: the ideal pass rewrote nothing. algebraic: the kernel's run read to the loss (Proof/KernelValue.lean
  over Proof/Hist.lean, Proof/Mid.lean, Proof/Bce.lean), the reference's run read to the loss (Proof/RefValue.lean).
-/
import proofs.«168187_j51591147159894_1_alg».proof.Defs
import proofs.«168187_j51591147159894_1_alg».proof.Proof.Gen.Kernel
import proofs.«168187_j51591147159894_1_alg».proof.Proof.Gen.Kernel.Skeleton
import proofs.«168187_j51591147159894_1_alg».proof.Proof.Gen.Kernel.Launch
import proofs.«168187_j51591147159894_1_alg».proof.Proof.Gen.Kernel.Points
import proofs.«168187_j51591147159894_1_alg».proof.Proof.Gen.Kernel.Frame
import proofs.«168187_j51591147159894_1_alg».proof.Proof.Gen.KernelIdeal
import proofs.«168187_j51591147159894_1_alg».proof.Proof.Gen.KernelIdeal.Skeleton
import proofs.«168187_j51591147159894_1_alg».proof.Proof.Gen.KernelIdeal.Launch
import proofs.«168187_j51591147159894_1_alg».proof.Proof.Gen.KernelIdeal.Points
import proofs.«168187_j51591147159894_1_alg».proof.Proof.Gen.KernelIdeal.Frame
import proofs.«168187_j51591147159894_1_alg».proof.Proof.Gen.ReferenceIdeal
import proofs.«168187_j51591147159894_1_alg».proof.Proof.Gen.Pre_finite_inputs
import proofs.«168187_j51591147159894_1_alg».proof.Proof.RefRun
import proofs.«168187_j51591147159894_1_alg».proof.Proof.RefRead
import proofs.«168187_j51591147159894_1_alg».proof.Proof.Spec
import proofs.«168187_j51591147159894_1_alg».proof.Proof.KernelValue
import proofs.«168187_j51591147159894_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the loss of the launch contents of the three arguments, which agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq]
  funext i
  rw [Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
